-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x1600000 : Shape := ⟨2, ![2, 1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S128 .f32) (main_arg5 : FVec F S128x64 .f32) (main_arg6 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : FVec F S128x128 .f32) (main_arg2 : FVec F S128 .f32) (main_arg3 : FVec F S128x128 .f32) (main_arg4 : FVec F S128 .f32) (main_arg5 : FVec F S128x64 .f32) (main_arg6 : FVec F S64 .f32) (main_arg7 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x1600000 : Shape := ⟨2, ![2, 1600000]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S10000x128 : Shape := ⟨2, ![10000, 128]⟩
abbrev S10000x1 : Shape := ⟨2, ![10000, 1]⟩
abbrev S1x128 : Shape := ⟨2, ![1, 128]⟩
abbrev S1x64 : Shape := ⟨2, ![1, 64]⟩
abbrev S100000x64 : Shape := ⟨2, ![100000, 64]⟩
abbrev S5000x64 : Shape := ⟨2, ![5000, 64]⟩

abbrev nBuf : Space → Nat
  | .hbm => 86
  | .vmem => 38
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S2x1600000, .i32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S100000, .i32⟩
  | .hbm, ⟨13, _⟩ => ⟨S1700000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x128, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x1, .f32⟩
  | .hbm, ⟨59, _⟩ => ⟨S1700000x128, .f32⟩
  | .hbm, ⟨60, _⟩ => ⟨S_, .f32⟩
  | .hbm, ⟨61, _⟩ => ⟨S100000x128, .f32⟩
  | .hbm, ⟨62, _⟩ => ⟨S1700000x1, .i32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S100000x128, .f32⟩
  | .hbm, ⟨67, _⟩ => ⟨S_, .i32⟩
  | .hbm, ⟨68, _⟩ => ⟨S1700000, .i32⟩
  | .hbm, ⟨69, _⟩ => ⟨S1700000, .i1⟩
  | .hbm, ⟨70, _⟩ => ⟨S_, .i32⟩
  | .hbm, ⟨71, _⟩ => ⟨S1700000, .i32⟩
  | .hbm, ⟨72, _⟩ => ⟨S1700000, .i32⟩
  | .hbm, ⟨73, _⟩ => ⟨S1700000, .i32⟩
  | .hbm, ⟨74, _⟩ => ⟨S1700000x1, .i32⟩
  | .hbm, ⟨75, _⟩ => ⟨S1700000x128, .f32⟩
  | .hbm, ⟨76, _⟩ => ⟨S1700000x1, .f32⟩
  | .hbm, ⟨77, _⟩ => ⟨S1700000x128, .f32⟩
  | .hbm, ⟨78, _⟩ => ⟨S_, .f32⟩
  | .hbm, ⟨79, _⟩ => ⟨S100000x128, .f32⟩
  | .hbm, ⟨80, _⟩ => ⟨S1700000x1, .i32⟩
  | .hbm, ⟨81, _⟩ => ⟨S100000x128, .f32⟩
  | .hbm, ⟨82, _⟩ => ⟨S1x128, .f32⟩
  | .hbm, ⟨83, _⟩ => ⟨S100000x128, .f32⟩
  | .hbm, ⟨84, _⟩ => ⟨S1x64, .f32⟩
  | .hbm, ⟨85, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S10000x128, .f32⟩
  | .local _ .vmem, ⟨6, _⟩ => ⟨S10000x128, .f32⟩
  | .local _ .vmem, ⟨7, _⟩ => ⟨S10000x1, .f32⟩
  | .local _ .vmem, ⟨8, _⟩ => ⟨S10000x1, .f32⟩
  | .local _ .vmem, ⟨9, _⟩ => ⟨S10000x128, .f32⟩
  | .local _ .vmem, ⟨10, _⟩ => ⟨S10000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x128, .f32⟩
  | .local _ .vmem, ⟨19, _⟩ => ⟨S5000x128, .f32⟩
  | .local _ .vmem, ⟨20, _⟩ => ⟨S5000x128, .f32⟩
  | .local _ .vmem, ⟨21, _⟩ => ⟨S10000x128, .f32⟩
  | .local _ .vmem, ⟨22, _⟩ => ⟨S10000x128, .f32⟩
  | .local _ .vmem, ⟨23, _⟩ => ⟨S10000x1, .f32⟩
  | .local _ .vmem, ⟨24, _⟩ => ⟨S10000x1, .f32⟩
  | .local _ .vmem, ⟨25, _⟩ => ⟨S10000x128, .f32⟩
  | .local _ .vmem, ⟨26, _⟩ => ⟨S10000x128, .f32⟩
  | .local _ .vmem, ⟨27, _⟩ => ⟨S5000x128, .f32⟩
  | .local _ .vmem, ⟨28, _⟩ => ⟨S5000x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S128x64, .f32⟩
  | .local _ .vmem, ⟨35, _⟩ => ⟨S1x64, .f32⟩
  | .local _ .vmem, ⟨36, _⟩ => ⟨S5000x64, .f32⟩
  | .local _ .vmem, ⟨37, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_9 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc6_stg0_0 : Ref sig .tc := ⟨.vmem, 32, rfl⟩
abbrev cc6_stg0_1 : Ref sig .tc := ⟨.vmem, 33, rfl⟩
abbrev cc6_stg1_0 : Ref sig .tc := ⟨.vmem, 34, rfl⟩
abbrev cc6_stg2_0 : Ref sig .tc := ⟨.vmem, 35, rfl⟩
abbrev cc6_stg3_0 : Ref sig .tc := ⟨.vmem, 36, rfl⟩
abbrev cc6_stg3_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31
abbrev cc6_sem0_0 : DmaSem sig := 32
abbrev cc6_sem0_1 : DmaSem sig := 33
abbrev cc6_sem1_0 : DmaSem sig := 34
abbrev cc6_sem2_0 : DmaSem sig := 35
abbrev cc6_sem3_0 : DmaSem sig := 36
abbrev cc6_sem3_1 : DmaSem sig := 37

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![170], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![170], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S1700000_S1700000x1 : S1700000.ShapeCasts S1700000x1
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S1700000x128.size a
  hwx1_0 : ∀ i : grid1.Coords, EltTy.bits .f32 = 32 ∨ (Rect.block (s := S1700000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S1700000x1.size a
  hwx1_1 : ∀ i : grid1.Coords, EltTy.bits .f32 = 32 ∨ (Rect.block (s := S1700000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S1700000x128.size a
  hwx1_2 : ∀ i : grid1.Coords, EltTy.bits .f32 = 32 ∨ (Rect.block (s := S1700000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S1700000x128.size a
  hwx4_0 : ∀ i : grid4.Coords, EltTy.bits .f32 = 32 ∨ (Rect.block (s := S1700000x128) S10000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x1.size a ≤ S1700000x1.size a
  hwx4_1 : ∀ i : grid4.Coords, EltTy.bits .f32 = 32 ∨ (Rect.block (s := S1700000x1) S10000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x128.size a ≤ S1700000x128.size a
  hwx4_2 : ∀ i : grid4.Coords, EltTy.bits .f32 = 32 ∨ (Rect.block (s := S1700000x128) S10000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S100000x128.size a
  hwx5_2 : ∀ i : grid5.Coords, EltTy.bits .f32 = 32 ∨ (Rect.block (s := S100000x128) S5000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x64.size a ≤ S100000x64.size a
  hwx6_3 : ∀ i : grid6.Coords, EltTy.bits .f32 = 32 ∨ (Rect.block (s := S100000x64) S5000x64.size (cc6_transform_3 i) (hinb6_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v37) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v44) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg3) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v45) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v52) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v53) S10000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v54) S10000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v57) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v58) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v59) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v59) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg5) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v60) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v61) S5000x64.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x1600000 : Shape := ⟨2, ![2, 1600000]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1x64 : Shape := ⟨2, ![1, 64]⟩

abbrev nBuf : Space → Nat
  | .hbm => 134
  | .vmem => 0
  | .smem => 0
  | _ => 0

abbrev hbmTy0_0 (i : Nat) : BufTy := match i % 128 with
  | 0 => ⟨S100000x128, .f32⟩
  | 1 => ⟨S128x128, .f32⟩
  | 2 => ⟨S128, .f32⟩
  | 3 => ⟨S128x128, .f32⟩
  | 4 => ⟨S128, .f32⟩
  | 5 => ⟨S128x64, .f32⟩
  | 6 => ⟨S64, .f32⟩
  | 7 => ⟨S2x1600000, .i32⟩
  | 8 => ⟨S1x1600000, .i32⟩
  | 9 => ⟨S1600000, .i32⟩
  | 10 => ⟨S1x1600000, .i32⟩
  | 11 => ⟨S1600000, .i32⟩
  | 12 => ⟨S100000x128, .f32⟩
  | 13 => ⟨S100000, .i32⟩
  | 14 => ⟨S1700000, .i32⟩
  | 15 => ⟨S1700000, .i32⟩
  | 16 => ⟨S_, .f32⟩
  | 17 => ⟨S1700000, .f32⟩
  | 18 => ⟨S_, .f32⟩
  | 19 => ⟨S100000, .f32⟩
  | 20 => ⟨S1700000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S1700000, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1700000x128, .f32⟩
  | 58 => ⟨S1700000x1, .f32⟩
  | 59 => ⟨S1700000x128, .f32⟩
  | 60 => ⟨S1700000x128, .f32⟩
  | 61 => ⟨S_, .f32⟩
  | 62 => ⟨S100000x128, .f32⟩
  | 63 => ⟨S1700000x1, .i32⟩
  | 64 => ⟨S100000x128, .f32⟩
  | 65 => ⟨S1x128, .f32⟩
  | 66 => ⟨S100000x128, .f32⟩
  | 67 => ⟨S100000x128, .f32⟩
  | 68 => ⟨S_, .f32⟩
  | 69 => ⟨S100000x128, .f32⟩
  | 70 => ⟨S100000x128, .f32⟩
  | 71 => ⟨S100000x128, .f32⟩
  | 72 => ⟨S100000, .i32⟩
  | 73 => ⟨S1700000, .i32⟩
  | 74 => ⟨S1700000, .i32⟩
  | 75 => ⟨S_, .f32⟩
  | 76 => ⟨S1700000, .f32⟩
  | 77 => ⟨S_, .f32⟩
  | 78 => ⟨S100000, .f32⟩
  | 79 => ⟨S1700000x1, .i32⟩
  | 80 => ⟨S100000, .f32⟩
  | 81 => ⟨S_, .f32⟩
  | 82 => ⟨S100000, .f32⟩
  | 83 => ⟨S100000, .i1⟩
  | 84 => ⟨S100000, .f32⟩
  | 85 => ⟨S_, .f32⟩
  | 86 => ⟨S_, .f32⟩
  | 87 => ⟨S100000, .f32⟩
  | 88 => ⟨S100000, .f32⟩
  | 89 => ⟨S_, .i32⟩
  | 90 => ⟨S1700000, .i32⟩
  | 91 => ⟨S1700000, .i1⟩
  | 92 => ⟨S_, .i32⟩
  | 93 => ⟨S1700000, .i32⟩
  | 94 => ⟨S1700000, .i32⟩
  | 95 => ⟨S1700000, .i32⟩
  | 96 => ⟨S1700000x1, .i32⟩
  | 97 => ⟨S1700000, .f32⟩
  | 98 => ⟨S_, .i32⟩
  | 99 => ⟨S1700000, .i32⟩
  | 100 => ⟨S1700000, .i1⟩
  | 101 => ⟨S_, .i32⟩
  | 102 => ⟨S1700000, .i32⟩
  | 103 => ⟨S1700000, .i32⟩
  | 104 => ⟨S1700000, .i32⟩
  | 105 => ⟨S1700000x1, .i32⟩
  | 106 => ⟨S1700000, .f32⟩
  | 107 => ⟨S1700000, .f32⟩
  | 108 => ⟨S_, .i32⟩
  | 109 => ⟨S1700000, .i32⟩
  | 110 => ⟨S1700000, .i1⟩
  | 111 => ⟨S_, .i32⟩
  | 112 => ⟨S1700000, .i32⟩
  | 113 => ⟨S1700000, .i32⟩
  | 114 => ⟨S1700000, .i32⟩
  | 115 => ⟨S1700000x1, .i32⟩
  | 116 => ⟨S1700000x128, .f32⟩
  | 117 => ⟨S1700000x1, .f32⟩
  | 118 => ⟨S1700000x128, .f32⟩
  | 119 => ⟨S1700000x128, .f32⟩
  | 120 => ⟨S_, .f32⟩
  | 121 => ⟨S100000x128, .f32⟩
  | 122 => ⟨S1700000x1, .i32⟩
  | 123 => ⟨S100000x128, .f32⟩
  | 124 => ⟨S1x128, .f32⟩
  | 125 => ⟨S100000x128, .f32⟩
  | 126 => ⟨S100000x128, .f32⟩
  | 127 => ⟨S_, .f32⟩
  | _ => ⟨S100000x128, .f32⟩

abbrev hbmTy0_1 (i : Nat) : BufTy := match i % 128 with
  | 0 => ⟨S100000x128, .f32⟩
  | 1 => ⟨S100000x128, .f32⟩
  | 2 => ⟨S100000x64, .f32⟩
  | 3 => ⟨S1x64, .f32⟩
  | 4 => ⟨S100000x64, .f32⟩
  | 5 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_9 : Ref sig .tc := ⟨.hbm, 75, rfl⟩
abbrev main_v52 : Ref sig .tc := ⟨.hbm, 76, rfl⟩
abbrev main_cst_10 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_11 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_12 : Ref sig .tc := ⟨.hbm, 85, rfl⟩
abbrev main_call2_v0 : Ref sig .tc := ⟨.hbm, 86, rfl⟩
abbrev main_call2_v1 : Ref sig .tc := ⟨.hbm, 87, rfl⟩
abbrev main_v59 : Ref sig .tc := ⟨.hbm, 88, rfl⟩
abbrev main_c_13 : Ref sig .tc := ⟨.hbm, 89, rfl⟩
abbrev main_v60 : Ref sig .tc := ⟨.hbm, 90, rfl⟩
abbrev main_v61 : Ref sig .tc := ⟨.hbm, 91, rfl⟩
abbrev main_c_14 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_c_15 : Ref sig .tc := ⟨.hbm, 98, rfl⟩
abbrev main_v67 : Ref sig .tc := ⟨.hbm, 99, rfl⟩
abbrev main_v68 : Ref sig .tc := ⟨.hbm, 100, rfl⟩
abbrev main_c_16 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_c_17 : Ref sig .tc := ⟨.hbm, 108, rfl⟩
abbrev main_v75 : Ref sig .tc := ⟨.hbm, 109, rfl⟩
abbrev main_v76 : Ref sig .tc := ⟨.hbm, 110, rfl⟩
abbrev main_c_18 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_19 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_call3_cst : Ref sig .tc := ⟨.hbm, 127, rfl⟩
abbrev main_call3_v0 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.LayerOps.lean ====
/-
  The graph-convolution network of the reference, cut at the places where the kernel's program hands work to a
  Pallas region. One layer is
      h ↦ relu (Σ over the edges e with dst e = v of  coef e · (h · W) (src e)  +  b),
  with the self-loops among the edges and coef e = deg(src e)^(-1/2) · deg(dst e)^(-1/2).
  The reference computes a layer as one chain of host operations; the kernel's program computes the same chain but
  runs four of its links on the TensorCore: the projection h · W, the scaling of the gathered rows by coef, bias plus
  relu, and the last projection plus bias. Each link is named here ONCE, as the reference's own host operations of the
  link's operands, so that a region's result and the reference's stage are the same term.
  The edge lists, the coefficients and the two row operations that stay on the host in both programs (the gather of
  the projected rows at src, the sum of the scaled rows into dst) are named as well; the whole network is `output`.
-/
import proofs.«171188_j60378650247170_1_alg».proof.Proof.RefRead

noncomputable section

namespace Cert.ReferenceIdeal.Layer

open Cert.ReferenceIdeal Cert.ReferenceIdeal.Gen Idealize.ShloMosaic Idealize.ShloMosaic.TcCoe Idealize.SL.Sem Idealize.ShloMosaic.StableHlo

variable {F : FTy → Type} [FloatOps F]

/-! ## The edges -/

/-- The source node of every edge: the given sources, then every node once (its self-loop). -/
def srcIdx (e : (⟨S2x1600000, .i32⟩ : BufTy).Contents (Elt F)) : (⟨S1700000, .i32⟩ : BufTy).Contents (Elt F) := ReadP.val_main_v6 (F := F) e

/-- The target node of every edge: the given targets, then every node once. -/
def dstIdx (e : (⟨S2x1600000, .i32⟩ : BufTy).Contents (Elt F)) : (⟨S1700000, .i32⟩ : BufTy).Contents (Elt F) := ReadP.val_main_v7 (F := F) e

/-- The symmetric normalisation deg(src)^(-1/2) · deg(dst)^(-1/2) of every edge (a node of degree 0 counts 0). -/
def coef (e : (⟨S2x1600000, .i32⟩ : BufTy).Contents (Elt F)) : (⟨S1700000, .f32⟩ : BufTy).Contents (Elt F) := ReadP.val_main_v30 (F := F) e

/-- A list of node numbers as the one-column index table the row operations take; a negative number counts from
    the end. -/
def wrapCol (s : (⟨S1700000, .i32⟩ : BufTy).Contents (Elt F)) : (⟨S1700000x1, .i32⟩ : BufTy).Contents (Elt F) :=
  broadcastInDim S1700000x1 ![0] bcast_S1700000_S1700000x1_0
    (select (cmpi .slt s (broadcastInDim S1700000 ![] bcast_S_S1700000 (constantI S_ 32 0#32)))
      (addi s (broadcastInDim S1700000 ![] bcast_S_S1700000 (constantI S_ 32 100000#32))) s)

/-- Per-edge numbers as one column. -/
def asCol (v : (⟨S1700000, .f32⟩ : BufTy).Contents (Elt F)) : (⟨S1700000x1, .f32⟩ : BufTy).Contents (Elt F) :=
  broadcastInDim S1700000x1 ![0] bcast_S1700000_S1700000x1_0 v

/-- A bias of 128 entries as one row. -/
def asRow128 (b : (⟨S128, .f32⟩ : BufTy).Contents (Elt F)) : (⟨S1x128, .f32⟩ : BufTy).Contents (Elt F) := broadcastInDim S1x128 ![1] bcast_S128_S1x128_1 b

/-- A bias of 64 entries as one row. -/
def asRow64 (b : (⟨S64, .f32⟩ : BufTy).Contents (Elt F)) : (⟨S1x64, .f32⟩ : BufTy).Contents (Elt F) := broadcastInDim S1x64 ![1] bcast_S64_S1x64_1 b

/-! ## The links of one layer -/

/-- h · W: every node's 128 features against the 128 × 128 weights. -/
def project (h : (⟨S100000x128, .f32⟩ : BufTy).Contents (Elt F)) (w : (⟨S128x128, .f32⟩ : BufTy).Contents (Elt F)) : (⟨S100000x128, .f32⟩ : BufTy).Contents (Elt F) :=
  Host.dotGeneral dot_S100000x128_S128x128_S100000x128_1_0_0_1_n_n none h w

/-- Row e of the result is row (s e) of `hlin`: the message edge e carries. -/
def rowsAt (hlin : (⟨S100000x128, .f32⟩ : BufTy).Contents (Elt F)) (s : (⟨S1700000, .i32⟩ : BufTy).Contents (Elt F)) : (⟨S1700000x128, .f32⟩ : BufTy).Contents (Elt F) :=
  Host.gather gather_S100000x128_S1700000x1_S1700000x128_1_0_n_n_0_1_1128 hlin (wrapCol s)

/-- Every message times its edge's coefficient (the column laid along the 128 features). -/
def scaleRows (msg : (⟨S1700000x128, .f32⟩ : BufTy).Contents (Elt F)) (ccol : (⟨S1700000x1, .f32⟩ : BufTy).Contents (Elt F)) : (⟨S1700000x128, .f32⟩ : BufTy).Contents (Elt F) :=
  mulf msg (broadcastInDim S1700000x128 ![0, 1] bcast_S1700000x1_S1700000x128_0_1 ccol)

/-- Row v of the result is the sum of the messages of the edges that end in v. -/
def sumInto (d : (⟨S1700000, .i32⟩ : BufTy).Contents (Elt F)) (msg : (⟨S1700000x128, .f32⟩ : BufTy).Contents (Elt F)) : (⟨S100000x128, .f32⟩ : BufTy).Contents (Elt F) :=
  Host.scatterAdd scatter_S100000x128_S1700000x1_S1700000x128_1_0_0_1
    (broadcastInDim S100000x128 ![] bcast_S_S100000x128 (constant S_ .f32 0x00000000#32))
    (broadcastInDim S1700000x1 ![0] bcast_S1700000_S1700000x1_0 d) msg

/-- max (agg + b, 0), the bias row laid along the nodes. -/
def biasRelu (agg : (⟨S100000x128, .f32⟩ : BufTy).Contents (Elt F)) (brow : (⟨S1x128, .f32⟩ : BufTy).Contents (Elt F)) : (⟨S100000x128, .f32⟩ : BufTy).Contents (Elt F) :=
  maximumf (addf agg (broadcastInDim S100000x128 ![0, 1] bcast_S1x128_S100000x128_0_1 brow))
    (broadcastInDim S100000x128 ![] bcast_S_S100000x128 (constant S_ .f32 0x00000000#32))

/-- h · Wf + bf: the read-out, 128 features to 64. -/
def projectOut (h : (⟨S100000x128, .f32⟩ : BufTy).Contents (Elt F)) (w : (⟨S128x64, .f32⟩ : BufTy).Contents (Elt F)) (brow : (⟨S1x64, .f32⟩ : BufTy).Contents (Elt F)) : (⟨S100000x64, .f32⟩ : BufTy).Contents (Elt F) :=
  addf (Host.dotGeneral dot_S100000x128_S128x64_S100000x64_1_0_0_1_n_n none h w)
    (broadcastInDim S100000x64 ![0, 1] bcast_S1x64_S100000x64_0_1 brow)

/-! ## The network -/

/-- One graph-convolution layer with relu. -/
def layer (h : (⟨S100000x128, .f32⟩ : BufTy).Contents (Elt F)) (w : (⟨S128x128, .f32⟩ : BufTy).Contents (Elt F)) (b : (⟨S128, .f32⟩ : BufTy).Contents (Elt F)) (e : (⟨S2x1600000, .i32⟩ : BufTy).Contents (Elt F)) :
    (⟨S100000x128, .f32⟩ : BufTy).Contents (Elt F) :=
  biasRelu (sumInto (dstIdx e) (scaleRows (rowsAt (project h w) (srcIdx e)) (asCol (coef e)))) (asRow128 b)

/-- Two layers and the read-out. -/
def output (x : (⟨S100000x128, .f32⟩ : BufTy).Contents (Elt F)) (w1 : (⟨S128x128, .f32⟩ : BufTy).Contents (Elt F)) (b1 : (⟨S128, .f32⟩ : BufTy).Contents (Elt F)) (w2 : (⟨S128x128, .f32⟩ : BufTy).Contents (Elt F))
    (b2 : (⟨S128, .f32⟩ : BufTy).Contents (Elt F)) (wf : (⟨S128x64, .f32⟩ : BufTy).Contents (Elt F)) (bf : (⟨S64, .f32⟩ : BufTy).Contents (Elt F)) (e : (⟨S2x1600000, .i32⟩ : BufTy).Contents (Elt F)) : (⟨S100000x64, .f32⟩ : BufTy).Contents (Elt F) :=
  projectOut (layer (layer x w1 b1 e) w2 b2 e) wf (asRow64 bf)

end Cert.ReferenceIdeal.Layer

end
-- ==== Proof.Layout.lean ====
/-
  Three reshapes that the kernel's program writes as a change of shape and the reference as a broadcast onto a new
  unit axis: a list of 1700000 numbers as one column, a bias of 128 (of 64) entries as one row. Either way entry
  (r, 0) of the column is entry r of the list, and entry (0, j) of the row is entry j of the bias.
-/
import proofs.«171188_j60378650247170_1_alg».proof.KernelIdeal
import proofs.«171188_j60378650247170_1_alg».proof.Proof.Gen.KernelIdeal
import proofs.«171188_j60378650247170_1_alg».proof.Proof.LayerOps
import Idealize.ShloMosaic.Lib.Pipeline.Value

noncomputable section

namespace Cert.KernelIdeal.Gen

open Idealize.ShloMosaic Idealize.ShloMosaic.TcCoe Idealize.SL.Sem

variable {F : FTy → Type} [FloatOps F]

/-- The per-edge numbers reshaped to one column are the column the reference broadcasts them to. -/
theorem col_eq (v : (⟨S1700000, .f32⟩ : BufTy).Contents (Elt F)) :
    shapeCast S1700000x1 v shapeCasts_S1700000_S1700000x1 = Cert.ReferenceIdeal.Layer.asCol (F := F) v := by
  funext j
  have h1 : (j 1).val = 0 := by have h : (j 1).val < 1 := (j 1).isLt; omega
  let k : S1700000.Idx := fun a => match a with | ⟨0, _⟩ => ⟨(j 0).val, (j 0).isLt⟩
  rw [shapeCast_apply v _ j k (by
    rw [Shape.rowMajor_val_one, Shape.rowMajor_val_two]
    show (j 0).val = (j 0).val * 1 + (j 1).val
    omega)]
  unfold Cert.ReferenceIdeal.Layer.asCol
  exact (broadcastInDim_apply _ _ v j k (fun a => match a with
    | ⟨0, _⟩ => by show (j 0).val = if (1700000 : Nat) = 1 then 0 else (j 0).val; rw [if_neg (by decide)])).symm

/-- A bias of 128 entries reshaped to one row is the row the reference broadcasts it to. -/
theorem row128_eq (b : (⟨S128, .f32⟩ : BufTy).Contents (Elt F)) :
    shapeCast S1x128 b shapeCasts_S128_S1x128 = Cert.ReferenceIdeal.Layer.asRow128 (F := F) b := by
  funext j
  have h0 : (j 0).val = 0 := by have h : (j 0).val < 1 := (j 0).isLt; omega
  let k : S128.Idx := fun a => match a with | ⟨0, _⟩ => ⟨(j 1).val, (j 1).isLt⟩
  rw [shapeCast_apply b _ j k (by
    rw [Shape.rowMajor_val_one, Shape.rowMajor_val_two]
    show (j 1).val = (j 0).val * 128 + (j 1).val
    omega)]
  unfold Cert.ReferenceIdeal.Layer.asRow128
  exact (broadcastInDim_apply _ _ b j k (fun a => match a with
    | ⟨0, _⟩ => by show (j 1).val = if (128 : Nat) = 1 then 0 else (j 1).val; rw [if_neg (by decide)])).symm

/-- A bias of 64 entries reshaped to one row is the row the reference broadcasts it to. -/
theorem row64_eq (b : (⟨S64, .f32⟩ : BufTy).Contents (Elt F)) :
    shapeCast S1x64 b shapeCasts_S64_S1x64 = Cert.ReferenceIdeal.Layer.asRow64 (F := F) b := by
  funext j
  have h0 : (j 0).val = 0 := by have h : (j 0).val < 1 := (j 0).isLt; omega
  let k : S64.Idx := fun a => match a with | ⟨0, _⟩ => ⟨(j 1).val, (j 1).isLt⟩
  rw [shapeCast_apply b _ j k (by
    rw [Shape.rowMajor_val_one, Shape.rowMajor_val_two]
    show (j 1).val = (j 0).val * 64 + (j 1).val
    omega)]
  unfold Cert.ReferenceIdeal.Layer.asRow64
  exact (broadcastInDim_apply _ _ b j k (fun a => match a with
    | ⟨0, _⟩ => by show (j 1).val = if (64 : Nat) = 1 then 0 else (j 1).val; rw [if_neg (by decide)])).symm

end Cert.KernelIdeal.Gen

end
-- ==== Proof.Keep.lean ====
/-
  The contents of the TensorCore's buffers are followed through @main segment by segment. A host stretch changes only
  the buffers its operations write; a region changes only its windows' arrays. This module has the one step both
  uses need: a buffer no operation of a stretch writes is, after the stretch, what it was before.
-/
import proofs.«171188_j60378650247170_1_alg».proof.Proof.Gen.KernelIdeal.Frame
import Idealize.ShloMosaic.Lib.StableHlo.Run

namespace Cert.KernelIdeal.Gen

open Idealize.ShloMosaic

/-- A host stretch leaves a buffer that none of its operations writes as it found it. -/
macro "host_keeps" ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

end Cert.KernelIdeal.Gen
-- ==== Proof.LibTRef.lean ====
/-
  A typed reference's two transports cancel. A module-local function's operation reads each operand by carrying the
  buffer's contents to the value's type and writes its result by carrying it back; the value's type IS the buffer's, so a
  result read by the next operation is the value itself.
-/
import Idealize.ShloMosaic.Lib.StableHlo

namespace Idealize.ShloMosaic.StableHlo.TRef

/-- Contents carried to a buffer's own type and back are themselves. -/
theorem ofBuf_toBuf {sig : RefSig} {T : BufTy} {Val : EltTy → Type} (x : TRef sig T) (v : T.Contents Val) :
    x.ofBuf (x.toBuf v) = v := by
  obtain ⟨r, h, h2, h3⟩ := x
  subst h
  rfl

end Idealize.ShloMosaic.StableHlo.TRef
-- ==== Proof.Edges.lean ====
/-
  What the host computes before the first region, read off @main's first three stretches: the list of every edge's
  source and of its target (the given edges, then every node once), and every edge's coefficient
  deg(src)^(-1/2) · deg(dst)^(-1/2) — the degree counted by summing a one into every edge's target, its inverse
  square root guarded by "degree positive". They are the reference's own terms. Also the arguments the first layer's
  regions read, which nothing before them writes.
-/
import proofs.«171188_j60378650247170_1_alg».proof.Proof.Gen.KernelIdeal.Frame
import proofs.«171188_j60378650247170_1_alg».proof.Proof.LayerOps
import proofs.«171188_j60378650247170_1_alg».proof.Proof.Layout
import proofs.«171188_j60378650247170_1_alg».proof.Proof.LibTRef
import proofs.«171188_j60378650247170_1_alg».proof.Proof.Keep
import Idealize.ShloMosaic.Lib.StableHlo.Run

set_option maxRecDepth 16384

noncomputable section

namespace Cert.KernelIdeal.Gen

open Idealize.ShloMosaic Idealize.ShloMosaic.TcCoe Idealize.SL.Sem
open Idealize.ShloMosaic.Pipeline (Dat)
open Cert.ReferenceIdeal (Layer.srcIdx Layer.dstIdx Layer.coef Layer.project Layer.rowsAt Layer.scaleRows Layer.sumInto Layer.biasRelu Layer.asCol Layer.asRow128 Layer.layer)

variable (m : (ℓ : Loc nD τ sig) → Buf (Elt Ideal) ℓ) (ρ : Dev nD → PrngReg)

/-! ## The arguments the first layer reads, at the segments that read them -/

theorem at3_x (c : Dev nD) : W3 (F := Ideal) m ρ c (Proc.devRef .tc main_arg0) = (m ((c : Thread nD τ).loc main_arg0)) :=
  calc W3 (F := Ideal) m ρ c (Proc.devRef .tc main_arg0)
    _ = W2 (F := Ideal) m ρ c (Proc.devRef .tc main_arg0) := by host_keeps hostOps0_2
    _ = W1 (F := Ideal) m ρ c (Proc.devRef .tc main_arg0) := by host_keeps hostOps0_1
    _ = W0 (F := Ideal) m ρ c (Proc.devRef .tc main_arg0) := by host_keeps hostOps0
    _ = (m ((c : Thread nD τ).loc main_arg0)) := rfl

theorem at3_w1 (c : Dev nD) : W3 (F := Ideal) m ρ c (Proc.devRef .tc main_arg1) = (m ((c : Thread nD τ).loc main_arg1)) :=
  calc W3 (F := Ideal) m ρ c (Proc.devRef .tc main_arg1)
    _ = W2 (F := Ideal) m ρ c (Proc.devRef .tc main_arg1) := by host_keeps hostOps0_2
    _ = W1 (F := Ideal) m ρ c (Proc.devRef .tc main_arg1) := by host_keeps hostOps0_1
    _ = W0 (F := Ideal) m ρ c (Proc.devRef .tc main_arg1) := by host_keeps hostOps0
    _ = (m ((c : Thread nD τ).loc main_arg1)) := rfl

theorem at6_b1 (c : Dev nD) : W6 (F := Ideal) m ρ c (Proc.devRef .tc main_arg2) = (m ((c : Thread nD τ).loc main_arg2)) :=
  calc W6 (F := Ideal) m ρ c (Proc.devRef .tc main_arg2)
    _ = W5 (F := Ideal) m ρ c (Proc.devRef .tc main_arg2) := W6_of_ne m ρ c main_arg2 (by decide)
    _ = W4 (F := Ideal) m ρ c (Proc.devRef .tc main_arg2) := by host_keeps hostOps1
    _ = W3 (F := Ideal) m ρ c (Proc.devRef .tc main_arg2) := W4_of_ne m ρ c main_arg2 (by decide)
    _ = W2 (F := Ideal) m ρ c (Proc.devRef .tc main_arg2) := by host_keeps hostOps0_2
    _ = W1 (F := Ideal) m ρ c (Proc.devRef .tc main_arg2) := by host_keeps hostOps0_1
    _ = W0 (F := Ideal) m ρ c (Proc.devRef .tc main_arg2) := by host_keeps hostOps0
    _ = (m ((c : Thread nD τ).loc main_arg2)) := rfl

/-! ## The edge lists and the coefficients -/

theorem at3_src (c : Dev nD) : W3 (F := Ideal) m ρ c (Proc.devRef .tc main_v5) = Layer.srcIdx (F := Ideal) (m ((c : Thread nD τ).loc main_arg7)) :=
  calc W3 (F := Ideal) m ρ c (Proc.devRef .tc main_v5)
    _ = W2 (F := Ideal) m ρ c (Proc.devRef .tc main_v5) := by host_keeps hostOps0_2
    _ = W1 (F := Ideal) m ρ c (Proc.devRef .tc main_v5) := by host_keeps hostOps0_1
    _ = Layer.srcIdx (F := Ideal) (m ((c : Thread nD τ).loc main_arg7)) := by
      show StableHlo.after hostOps0 (W0 (F := Ideal) m ρ c) (Proc.devRef .tc main_v5) = _
      after_results
      rfl

theorem at3_dst (c : Dev nD) : W3 (F := Ideal) m ρ c (Proc.devRef .tc main_v6) = Layer.dstIdx (F := Ideal) (m ((c : Thread nD τ).loc main_arg7)) :=
  calc W3 (F := Ideal) m ρ c (Proc.devRef .tc main_v6)
    _ = W2 (F := Ideal) m ρ c (Proc.devRef .tc main_v6) := by host_keeps hostOps0_2
    _ = W1 (F := Ideal) m ρ c (Proc.devRef .tc main_v6) := by host_keeps hostOps0_1
    _ = Layer.dstIdx (F := Ideal) (m ((c : Thread nD τ).loc main_arg7)) := by
      show StableHlo.after hostOps0 (W0 (F := Ideal) m ρ c) (Proc.devRef .tc main_v6) = _
      after_results
      rfl

theorem at2_src (c : Dev nD) : W2 (F := Ideal) m ρ c (Proc.devRef .tc main_v5) = Layer.srcIdx (F := Ideal) (m ((c : Thread nD τ).loc main_arg7)) :=
  calc W2 (F := Ideal) m ρ c (Proc.devRef .tc main_v5)
    _ = W1 (F := Ideal) m ρ c (Proc.devRef .tc main_v5) := by host_keeps hostOps0_1
    _ = Layer.srcIdx (F := Ideal) (m ((c : Thread nD τ).loc main_arg7)) := by
      show StableHlo.after hostOps0 (W0 (F := Ideal) m ρ c) (Proc.devRef .tc main_v5) = _
      after_results
      rfl

theorem at2_dst (c : Dev nD) : W2 (F := Ideal) m ρ c (Proc.devRef .tc main_v6) = Layer.dstIdx (F := Ideal) (m ((c : Thread nD τ).loc main_arg7)) :=
  calc W2 (F := Ideal) m ρ c (Proc.devRef .tc main_v6)
    _ = W1 (F := Ideal) m ρ c (Proc.devRef .tc main_v6) := by host_keeps hostOps0_1
    _ = Layer.dstIdx (F := Ideal) (m ((c : Thread nD τ).loc main_arg7)) := by
      show StableHlo.after hostOps0 (W0 (F := Ideal) m ρ c) (Proc.devRef .tc main_v6) = _
      after_results
      rfl

/-- Which nodes have a positive degree: the degree is the sum of a one into the target of every edge. -/
theorem at1_pos (c : Dev nD) : W1 (F := Ideal) m ρ c (Proc.devRef .tc main_v12) = Cert.ReferenceIdeal.ReadP.val_main_v13 (F := Ideal) (m ((c : Thread nD τ).loc main_arg7)) := by
  show StableHlo.after hostOps0 (W0 (F := Ideal) m ρ c) (Proc.devRef .tc main_v12) = _
  after_results
  rfl

/-- The inverse square root of every node's degree. -/
theorem at1_rsqrt (c : Dev nD) : W1 (F := Ideal) m ρ c (Proc.devRef .tc main_v13) = Cert.ReferenceIdeal.ReadP.val_main_v14 (F := Ideal) (m ((c : Thread nD τ).loc main_arg7)) := by
  show StableHlo.after hostOps0 (W0 (F := Ideal) m ρ c) (Proc.devRef .tc main_v13) = _
  after_results
  rfl

/-- The zero a node of degree 0 gets in place of the inverse square root. -/
theorem at1_zero (c : Dev nD) : W1 (F := Ideal) m ρ c (Proc.devRef .tc main_cst_2) = Cert.ReferenceIdeal.ReadP.val_main_cst_2 (F := Ideal) := by
  show StableHlo.after hostOps0 (W0 (F := Ideal) m ρ c) (Proc.devRef .tc main_cst_2) = _
  after_results
  rfl

/-- The guarded inverse square root is a selection between the two arrays by the first: the three operations of the
    selection read their operands at the values' own types, and a value carried to its buffer's type and back is
    itself. Stated for any contents `X` of the buffers before the three operations. -/
theorem select_stretch (X : Valuation τ sig (Elt Ideal)) (p : (⟨S100000, .i1⟩ : BufTy).Contents (Elt Ideal))
    (r : (⟨S100000, .f32⟩ : BufTy).Contents (Elt Ideal)) (z : (⟨S_, .f32⟩ : BufTy).Contents (Elt Ideal))
    (h12 : X (Proc.devRef .tc main_v12) = p) (h13 : X (Proc.devRef .tc main_v13) = r) (h2 : X (Proc.devRef .tc main_cst_2) = z) :
    StableHlo.after hostOps0_1 X (Proc.devRef .tc main_v14) = select p r (broadcastInDim S100000 ![] bcast_S_S100000 (id z)) := by
  after_results_simp
  simp only [StableHlo.TRef.ofBuf_toBuf]
  rw [h12, h13, h2]
  rfl

/-- deg^(-1/2) where the degree is positive, 0 elsewhere: the reference's array. -/
theorem at2_dinv (c : Dev nD) : W2 (F := Ideal) m ρ c (Proc.devRef .tc main_v14) = Cert.ReferenceIdeal.ReadP.val_main_v15 (F := Ideal) (m ((c : Thread nD τ).loc main_arg7)) :=
  (select_stretch (W1 (F := Ideal) m ρ c) _ _ _ (at1_pos m ρ c) (at1_rsqrt m ρ c) (at1_zero m ρ c)).trans rfl

/-- The product of the guarded inverse square roots gathered at every edge's two ends. -/
def endsProduct {F : FTy → Type} [FloatOps F] (dinv : (⟨Cert.ReferenceIdeal.S100000, .f32⟩ : BufTy).Contents (Elt F)) (s d : (⟨Cert.ReferenceIdeal.S1700000, .i32⟩ : BufTy).Contents (Elt F)) : (⟨Cert.ReferenceIdeal.S1700000, .f32⟩ : BufTy).Contents (Elt F) :=
  mulf (Host.gather Cert.ReferenceIdeal.gather_S100000_S1700000x1_S1700000_n_0_n_n_0_1_1 dinv (Cert.ReferenceIdeal.Layer.wrapCol (F := F) s))
    (Host.gather Cert.ReferenceIdeal.gather_S100000_S1700000x1_S1700000_n_0_n_n_0_1_1 dinv (Cert.ReferenceIdeal.Layer.wrapCol (F := F) d))

/-- The stretch that computes the coefficients leaves that product, for any contents `X` of the buffers before it. -/
theorem coef_stretch (X : Valuation τ sig (Elt Ideal)) (dinv : (⟨Cert.ReferenceIdeal.S100000, .f32⟩ : BufTy).Contents (Elt Ideal)) (s d : (⟨Cert.ReferenceIdeal.S1700000, .i32⟩ : BufTy).Contents (Elt Ideal))
    (h14 : X (Proc.devRef .tc main_v14) = dinv) (h5 : X (Proc.devRef .tc main_v5) = s) (h6 : X (Proc.devRef .tc main_v6) = d) :
    StableHlo.after hostOps0_2 X (Proc.devRef .tc main_v29) = endsProduct (F := Ideal) dinv s d := by
  after_results_simp
  rw [h14, h5, h6]
  rfl

/-- Every edge's coefficient: the guarded inverse square root gathered at the edge's source times the same gathered
    at its target. -/
theorem at3_coef (c : Dev nD) : W3 (F := Ideal) m ρ c (Proc.devRef .tc main_v29) = Layer.coef (F := Ideal) (m ((c : Thread nD τ).loc main_arg7)) :=
  (coef_stretch (W2 (F := Ideal) m ρ c) _ _ _ (at2_dinv m ρ c) (at2_src m ρ c) (at2_dst m ρ c)).trans rfl

end Cert.KernelIdeal.Gen

end
-- ==== Proof.Region0.lean ====
/-
  The first matrix product. The region walks the 100000 nodes in 20 blocks of 5000 rows; at each block it multiplies
  the block of x (rounded to bf16, which over the extended reals is the identity) by the whole of W1 into a zero
  accumulator and writes the 5000 × 128 product back to the same rows of its output. Entry (r, j) of a block's product
  is the sum over k of x (r, k) · W1 (k, j), which is the reference's x · W1 at that row: the blocks are restrictions of
  one whole-array function and they tile the output, so after the region the output array IS the reference's product
  of the two arrays the region read.
-/
import proofs.«171188_j60378650247170_1_alg».proof.Proof.Gen.KernelIdeal.Frame
import proofs.«171188_j60378650247170_1_alg».proof.Proof.LayerOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Gen

open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-! ## The block product at an index

One block of the region is a 5000 × 128 slab of rows times the whole 128 × 128 weight matrix. At the ideal values
a change of float format is the identity and a product accumulated into zero is the plain sum over the contracted
axis, so entry (r, q) of the block's result is Σ k, x (r, k) · w (k, q). -/

/-- The left operand's index at output index `i` and contraction index `q`: the output's row on axis 0. -/
theorem blockDot_lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and the contraction index on axis 1. -/
theorem blockDot_lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's index: the contraction index on axis 0, -/
theorem blockDot_rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and the output's column on axis 1. -/
theorem blockDot_rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry (row of `j`, `k`) of a 5000 × 128 block. -/
abbrev blockRowAt (j : S5000x128.Idx) (k : Fin 128) : S5000x128.Idx := fun a => match a with
  | ⟨0, _⟩ => ⟨(j 0).val, (j 0).isLt⟩
  | ⟨1, _⟩ => ⟨k.val, k.isLt⟩
/-- Entry (`k`, column of `j`) of the 128 × 128 weights. -/
abbrev weightColAt (j : S5000x128.Idx) (k : Fin 128) : S128x128.Idx := fun a => match a with
  | ⟨0, _⟩ => ⟨k.val, k.isLt⟩
  | ⟨1, _⟩ => ⟨(j 1).val, (j 1).isLt⟩

/-- The block product into a zero accumulator, read at an index: the sum over the 128 contracted entries. -/
theorem blockDot_apply (x : FVec Ideal S5000x128 .bf16) (w : FVec Ideal S128x128 .bf16) (j : S5000x128.Idx) :
    matmul (F := Ideal) dot_S5000x128_S128x128_S5000x128_1_0_0_1_n_n none x w (constant (F := Ideal) S5000x128 .f32 0x00000000#32) j
      = ∑ k : Fin 128, x (blockRowAt j k) * w (weightColAt j k) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = blockRowAt j k := funext fun a => Fin.ext (by
    match a with
    | ⟨0, _⟩ => exact blockDot_lhs_0 _ _
    | ⟨1, _⟩ => exact (blockDot_lhs_1 _ _).trans hk)
  have er : dot_S5000x128_S128x128_S5000x128_1_0_0_1_n_n.rhsIdx j ((ValueIdx.contrEquiv1 dot_S5000x128_S128x128_S5000x128_1_0_0_1_n_n 128 rfl rfl).symm k) = weightColAt j k := funext fun a => Fin.ext (by
    match a with
    | ⟨0, _⟩ => exact (blockDot_rhs_0 _ _).trans hk
    | ⟨1, _⟩ => exact blockDot_rhs_1 _ _)
  rw [el, er]

/-- The body's payload at an index: the two changes of format vanish and the product is the sum. -/
theorem k0_pay1_apply (x0 : Vec Ideal S5000x128 .f32) (x1 : Vec Ideal S128x128 .f32) (j : S5000x128.Idx) :
    k0_pay1 (F := Ideal) x0 x1 j = ∑ k : Fin 128, x0 (blockRowAt j k) * x1 (weightColAt j k) := by
  unfold k0_pay1
  exact blockDot_apply _ _ j

/-! ## From the blocks to the array -/

theorem blockOrigin : (![0, 0] : Fin 2 → Nat) = fun _ => 0 := funext fun a => by fin_cases a <;> rfl

/-- The index maps over the grid: the rows' window and the output's window sit on the same block of rows, block `t`
    at point `t`; the weights' window never moves; no window moves along the columns. -/
theorem rowBlocks0 : ∀ t : Fin cfg0.N, win0_0.index t (0 : Fin 2) = win0_2.index t (0 : Fin 2)
    ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the projection of the whole arrays: row r of the block is row
    5000 t + r of the features, and the weights are read whole. -/
theorem flushed0_eq (c : Dev nD) (t : Fin cfg0.N) :
    (dat0 (F := Ideal) V c).flushed 2 t = ((cfg0.win 2).blk t).view.read (Elt Ideal) (Cert.ReferenceIdeal.Layer.project (F := Ideal) (V c main_arg0) (V c main_arg1)) := by
  show (cfg0.win 2).cut (grid0.coords t) ((dat0 (F := Ideal) V c).after 2 t) = _
  rw [after0_2]
  unfold out0_2
  rw [View.canon_unit_zero blockOrigin]
  simp only [View.ld_unit_zero (S := S5000x128) blockOrigin, View.ld_unit_zero (S := S128x128) blockOrigin]
  obtain ⟨e0, e1, e2, e3, e4, e5⟩ := rowBlocks0 t
  funext j
  show k0_pay1 (F := Ideal) (iblk0 V c 0 t) (iblk0 V c 1 t) j
    = Cert.ReferenceIdeal.ReadP.val_main_v4 (F := Ideal) (V c main_arg0) (V c main_arg1) (((cfg0.win 2).blk t).view.emb j)
  refine (k0_pay1_apply _ _ j).trans (Eq.trans ?_ (Cert.ReferenceIdeal.ReadP.val_main_v4_apply _ _ _).symm)
  refine Finset.sum_congr rfl fun k _ => ?_
  have h0 : ((cfg0.win 0).blk t).view.emb (blockRowAt j k) = Cert.ReferenceIdeal.ReadP.lidx_main_v4 (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have h1 : ((cfg0.win 1).blk t).view.emb (weightColAt j k) = Cert.ReferenceIdeal.ReadP.ridx_main_v4 (((cfg0.win 2).blk t).view.emb j) k := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  exact congrArg₂ (fun a b : EReal => a * b) (congrArg (V c main_arg0) h0) (congrArg (V c main_arg1) h1)

/-- An index of the array is in point `t`'s block iff each coordinate is in the block's range on its axis. -/
theorem mem_rowBlock0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Every index of the array lies in the block of the point its row selects: row r in block r / 5000. -/
theorem rowBlocks_cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  let t : Fin cfg0.N := ⟨(i 0).val / 5000, by show (i 0).val / 5000 < 20; omega⟩
  obtain ⟨e0, e1, e2, e3, e4, e5⟩ := rowBlocks0 t
  have e4' : win0_2.index t (0 : Fin 2) = (i 0).val / 5000 := e4
  refine ⟨t, flush0_2 t, ?_⟩
  rw [mem_rowBlock0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The array the region leaves: the projection of the features by the weights, whole. -/
theorem final0 (c : Dev nD) : (dat0 (F := Ideal) V c).arrAt 2 cfg0.N = Cert.ReferenceIdeal.Layer.project (F := Ideal) (V c main_arg0) (V c main_arg1) :=
  (dat0 (F := Ideal) V c).arrAt_eq_of_cover 2 _ (fun t _ => flushed0_eq V c t) rowBlocks_cover0

end Cert.KernelIdeal.Gen

end
-- ==== Proof.Region1.lean ====
/-
  The scaling of the messages. The region walks the 1700000 edges in 170 blocks of 10000 rows; at each block it
  multiplies every row of the gathered messages by that edge's coefficient, the one-column block laid along the 128
  features. Entry (r, j) is msg (r, j) · coef (r, 0) in the kernel's block and in the reference's whole array alike, and
  the blocks tile the output: after the region the output array is the reference's scaled messages.
-/
import proofs.«171188_j60378650247170_1_alg».proof.Proof.Gen.KernelIdeal.Frame
import proofs.«171188_j60378650247170_1_alg».proof.Proof.LayerOps
import Idealize.ShloMosaic.Lib.Pipeline.Value
import Idealize.ShloMosaic.Lib.ValueIdx
import Idealize.ShloMosaic.Lib.ValueLayout

set_option maxRecDepth 16384

noncomputable section

namespace Cert.KernelIdeal.Gen

open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- Both accesses of the body start at the origin of their buffers. -/
theorem origin1 : (![0, 0] : Fin 2 → Nat) = fun _ => 0 := funext fun a => by fin_cases a <;> rfl

/-- The scaling payload at an entry: the message entry times the coefficient of its row. -/
theorem scalePayload1_apply (x0 : Vec Ideal S10000x128 .f32) (x1 : Vec Ideal S10000x1 .f32) (j : S10000x128.Idx) (k : S10000x1.Idx)
    (hk0 : (k 0).val = (j 0).val) (hk1 : (k 1).val = 0) :
    k1_pay1 (F := Ideal) x0 x1 j = x0 j * x1 k := by
  unfold k1_pay1
  rw [shapeCast_self, shapeCast_self, mulf_apply]
  congr 1
  exact broadcastTo_apply x1 broadcasts_S10000x1_S10000x128 j k (fun a => match a with
    | ⟨0, _⟩ => by show (k 0).val = if (10000 : Nat) = 1 then 0 else (j 0).val; rw [if_neg (by decide), hk0]
    | ⟨1, _⟩ => by show (k 1).val = if (1 : Nat) = 1 then 0 else (j 1).val; rw [if_pos rfl, hk1])

/-- The reference's scaled messages at an entry i: the message entry there times the coefficient of row i, the two
    read at any indices i0 and k that name that entry and that row. -/
theorem scaleRows1_apply (msg : (⟨S1700000x128, .f32⟩ : BufTy).Contents (Elt Ideal)) (ccol : (⟨S1700000x1, .f32⟩ : BufTy).Contents (Elt Ideal))
    (i i0 : S1700000x128.Idx) (k : S1700000x1.Idx) (hi : i0 = i) (hk0 : (k 0).val = (i 0).val) (hk1 : (k 1).val = 0) :
    msg i0 * ccol k = Cert.ReferenceIdeal.Layer.scaleRows (F := Ideal) msg ccol i := by
  subst hi
  unfold Cert.ReferenceIdeal.Layer.scaleRows
  rw [mulf_apply]
  congr 1
  exact (broadcastInDim_apply _ Cert.ReferenceIdeal.Gen.bcast_S1700000x1_S1700000x128_0_1 ccol i0 k (fun a => match a with
    | ⟨0, _⟩ => by show (k 0).val = if (1700000 : Nat) = 1 then 0 else (i0 0).val; rw [if_neg (by decide), hk0]
    | ⟨1, _⟩ => by show (k 1).val = if (1 : Nat) = 1 then 0 else (i0 1).val; rw [if_pos rfl, hk1])).symm

/-- The three windows move together: at point t each takes block (t, 0) of its array. -/
theorem blockIndex1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point t writes back is block t of the scaled messages of the arrays as the region finds them. -/
theorem flushed1_eq (c : Dev nD) (t : Fin cfg1.N) :
    (dat1 (F := Ideal) V c).flushed 2 t = ((cfg1.win 2).blk t).view.read (Elt Ideal) (Cert.ReferenceIdeal.Layer.scaleRows (F := Ideal) (V c main_v37) (V c main_v38)) := by
  show (cfg1.win 2).cut (grid1.coords t) ((dat1 V c).after 2 t) = _
  rw [after1_2]
  unfold out1_2
  rw [View.canon_unit_zero origin1]
  simp only [View.ld_unit_zero (S := S10000x128) origin1, View.ld_unit_zero (S := S10000x1) origin1]
  obtain ⟨e0, e1, e2, e3, e4, e5⟩ := blockIndex1 t
  funext j
  have hj0 : (j 0).val < 10000 := (j 0).isLt
  have hj1 : (j 1).val < 128 := (j 1).isLt
  let k : S10000x1.Idx := fun a => match a with
    | ⟨0, _⟩ => ⟨(j 0).val, hj0⟩
    | ⟨1, _⟩ => ⟨0, Nat.one_pos⟩
  show k1_pay1 (F := Ideal) (iblk1 V c 0 t) (iblk1 V c 1 t) j = Cert.ReferenceIdeal.Layer.scaleRows (F := Ideal) (V c main_v37) (V c main_v38) (((cfg1.win 2).blk t).view.emb j)
  have h0 : ((cfg1.win 0).blk t).view.emb j = ((cfg1.win 2).blk t).view.emb j := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 128 + 1 * (j 1).val = win1_2.index t (1 : Fin 2) * 128 + 1 * (j 1).val; omega
  refine (scalePayload1_apply (iblk1 V c 0 t) (iblk1 V c 1 t) j k rfl rfl).trans
    (scaleRows1_apply (V c main_v37) (V c main_v38) (((cfg1.win 2).blk t).view.emb j) (((cfg1.win 0).blk t).view.emb j) (((cfg1.win 1).blk t).view.emb k) h0 ?_ ?_)
  · show win1_1.index t (0 : Fin 2) * 10000 + 1 * (j 0).val = win1_2.index t (0 : Fin 2) * 10000 + 1 * (j 0).val
    omega
  · show win1_1.index t (1 : Fin 2) * 1 + 1 * 0 = 0
    omega

/-- An entry of the array is in point t's block iff each coordinate is in the block's range on its axis. -/
theorem mem_block1 (t : Fin cfg1.N) (i : S1700000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v39).slice (win1_2.rect t)).set ↔ _
  rw [View.set_slice_whole, Rect.mem_set_unit]
  exact Iff.rfl

/-- Every row lies in the block of the point that is its number divided by the block's height, and every point writes back. -/
theorem cover1 (i : S1700000x128.Idx) : ∃ t : Fin cfg1.N, (cfg1.win 2).flush t = true ∧ i ∈ ((cfg1.win 2).blk t).view.set := by
  have hi0 : (i 0).val < 1700000 := (i 0).isLt
  have hi1 : (i 1).val < 128 := (i 1).isLt
  have hN : cfg1.N = 170 := rfl
  let t : Fin cfg1.N := ⟨(i 0).val / 10000, by rw [hN]; omega⟩
  have ht : t.val = (i 0).val / 10000 := rfl
  obtain ⟨e0, e1, e2, e3, e4, e5⟩ := blockIndex1 t
  refine ⟨t, flush1_2 t, ?_⟩
  rw [mem_block1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- The array after the region: the scaled messages of the two arrays the region read. -/
theorem final1 (c : Dev nD) : (dat1 (F := Ideal) V c).arrAt 2 cfg1.N = Cert.ReferenceIdeal.Layer.scaleRows (F := Ideal) (V c main_v37) (V c main_v38) :=
  (dat1 (F := Ideal) V c).arrAt_eq_of_cover 2 _ (fun t _ => flushed1_eq V c t) (cover1)

end Cert.KernelIdeal.Gen

end
-- ==== Proof.Region2.lean ====
/-
  Bias and relu. The region walks the 100000 nodes in 20 blocks of 5000 rows; at each block it adds the bias row to
  every row of the aggregated messages and takes the larger of that and zero. Entry (r, j) is max (agg (r, j) + b j, 0)
  in the kernel's block and in the reference's whole array alike (both zeros are the same constant broadcast), and the
  blocks tile the output: after the region the output array is the reference's layer.
-/
import proofs.«171188_j60378650247170_1_alg».proof.Proof.Gen.KernelIdeal.Frame
import proofs.«171188_j60378650247170_1_alg».proof.Proof.LayerOps
import Idealize.ShloMosaic.Lib.Pipeline.Value
import Idealize.ShloMosaic.Lib.ValueIdx
import Idealize.ShloMosaic.Lib.ValueLayout

set_option maxRecDepth 16384

noncomputable section

namespace Cert.KernelIdeal.Gen

open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- Both accesses of the body start at the origin of their buffers. -/
theorem origin2 : (![0, 0] : Fin 2 → Nat) = fun _ => 0 := funext fun a => by fin_cases a <;> rfl

/-- The bias-and-relu payload at an entry: the larger of zero and the aggregated entry plus the bias of its column. -/
theorem biasReluPayload2_apply (x0 : Vec Ideal S5000x128 .f32) (x1 : Vec Ideal S1x128 .f32) (j : S5000x128.Idx) (k : S1x128.Idx)
    (hk0 : (k 0).val = 0) (hk1 : (k 1).val = (j 1).val) :
    k2_pay1 (F := Ideal) x0 x1 j = max (x0 j + x1 k) (Ideal.ofBits .f32 0x00000000#32) := by
  unfold k2_pay1
  rw [shapeCast_self, shapeCast_self, maximumf_apply, addf_apply, broadcast_apply]
  have hb : broadcastTo S5000x128 x1 broadcasts_S1x128_S5000x128 j = x1 k :=
    broadcastTo_apply x1 broadcasts_S1x128_S5000x128 j k (fun a => match a with
      | ⟨0, _⟩ => by show (k 0).val = if (1 : Nat) = 1 then 0 else (j 0).val; rw [if_pos rfl, hk0]
      | ⟨1, _⟩ => by show (k 1).val = if (128 : Nat) = 1 then 0 else (j 1).val; rw [if_neg (by decide), hk1])
  rw [hb]
  rfl

/-- The reference's bias and relu at an entry i: the larger of zero and the aggregated entry there plus the bias of
    column i, the two read at any indices i0 and k that name that entry and that column. -/
theorem biasRelu2_apply (agg : (⟨S100000x128, .f32⟩ : BufTy).Contents (Elt Ideal)) (brow : (⟨S1x128, .f32⟩ : BufTy).Contents (Elt Ideal))
    (i i0 : S100000x128.Idx) (k : S1x128.Idx) (hi : i0 = i) (hk0 : (k 0).val = 0) (hk1 : (k 1).val = (i 1).val) :
    max (agg i0 + brow k) (Ideal.ofBits .f32 0x00000000#32) = Cert.ReferenceIdeal.Layer.biasRelu (F := Ideal) agg brow i := by
  subst hi
  unfold Cert.ReferenceIdeal.Layer.biasRelu
  rw [maximumf_apply, addf_apply]
  have hb : broadcastInDim Cert.ReferenceIdeal.S100000x128 ![0, 1] Cert.ReferenceIdeal.Gen.bcast_S1x128_S100000x128_0_1 brow i0 = brow k :=
    broadcastInDim_apply _ Cert.ReferenceIdeal.Gen.bcast_S1x128_S100000x128_0_1 brow i0 k (fun a => match a with
      | ⟨0, _⟩ => by show (k 0).val = if (1 : Nat) = 1 then 0 else (i0 0).val; rw [if_pos rfl, hk0]
      | ⟨1, _⟩ => by show (k 1).val = if (128 : Nat) = 1 then 0 else (i0 1).val; rw [if_neg (by decide), hk1])
  rw [hb]
  rfl

/-- The aggregate's and the result's windows move together, block (t, 0) at point t; the bias row's window stays at
    its one block. -/
theorem blockIndex2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of bias and relu of the arrays as the region finds them. -/
theorem flushed2_eq (c : Dev nD) (t : Fin cfg2.N) :
    (dat2 (F := Ideal) V c).flushed 2 t = ((cfg2.win 2).blk t).view.read (Elt Ideal) (Cert.ReferenceIdeal.Layer.biasRelu (F := Ideal) (V c main_v42) (V c main_v43)) := by
  show (cfg2.win 2).cut (grid2.coords t) ((dat2 V c).after 2 t) = _
  rw [after2_2]
  unfold out2_2
  rw [View.canon_unit_zero origin2]
  simp only [View.ld_unit_zero (S := S5000x128) origin2, View.ld_unit_zero (S := S1x128) origin2]
  obtain ⟨e0, e1, e2, e3, e4, e5⟩ := blockIndex2 t
  funext j
  have hj0 : (j 0).val < 5000 := (j 0).isLt
  have hj1 : (j 1).val < 128 := (j 1).isLt
  let k : S1x128.Idx := fun a => match a with
    | ⟨0, _⟩ => ⟨0, Nat.one_pos⟩
    | ⟨1, _⟩ => ⟨(j 1).val, hj1⟩
  show k2_pay1 (F := Ideal) (iblk2 V c 0 t) (iblk2 V c 1 t) j = Cert.ReferenceIdeal.Layer.biasRelu (F := Ideal) (V c main_v42) (V c main_v43) (((cfg2.win 2).blk t).view.emb j)
  have h0 : ((cfg2.win 0).blk t).view.emb j = ((cfg2.win 2).blk t).view.emb j := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * (j 1).val = win2_2.index t (1 : Fin 2) * 128 + 1 * (j 1).val; omega
  refine (biasReluPayload2_apply (iblk2 V c 0 t) (iblk2 V c 1 t) j k rfl rfl).trans
    (biasRelu2_apply (V c main_v42) (V c main_v43) (((cfg2.win 2).blk t).view.emb j) (((cfg2.win 0).blk t).view.emb j) (((cfg2.win 1).blk t).view.emb k) h0 ?_ ?_)
  · show win2_1.index t (0 : Fin 2) * 1 + 1 * 0 = 0
    omega
  · show win2_1.index t (1 : Fin 2) * 128 + 1 * (j 1).val = win2_2.index t (1 : Fin 2) * 128 + 1 * (j 1).val
    omega

/-- An entry of the array is in point t's block iff each coordinate is in the block's range on its axis. -/
theorem mem_block2 (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v44).slice (win2_2.rect t)).set ↔ _
  rw [View.set_slice_whole, Rect.mem_set_unit]
  exact Iff.rfl

/-- Every row lies in the block of the point that is its number divided by the block's height, and every point writes back. -/
theorem cover2 (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 20 := rfl
  let t : Fin cfg2.N := ⟨(i 0).val / 5000, by rw [hN]; omega⟩
  have ht : t.val = (i 0).val / 5000 := rfl
  obtain ⟨e0, e1, e2, e3, e4, e5⟩ := blockIndex2 t
  refine ⟨t, flush2_2 t, ?_⟩
  rw [mem_block2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- The array after the region: bias and relu of the two arrays the region read. -/
theorem final2 (c : Dev nD) : (dat2 (F := Ideal) V c).arrAt 2 cfg2.N = Cert.ReferenceIdeal.Layer.biasRelu (F := Ideal) (V c main_v42) (V c main_v43) :=
  (dat2 (F := Ideal) V c).arrAt_eq_of_cover 2 _ (fun t _ => flushed2_eq V c t) (cover2)

end Cert.KernelIdeal.Gen

end
-- ==== Proof.Walk1.lean ====
/-
  The first layer, followed through @main from the first region to the third. With x the node features, W the first
  weights, b the first bias and e the edges as the launch finds them, and src, dst, coef the edge lists and
  coefficients the host has computed before the first region:
    the first region leaves x · W in its result array;
    the host stretch after it gathers, for every edge, row src of x · W, and lays coef out as one column;
    the second region multiplies every gathered row by its edge's coefficient;
    the host stretch after it sums the scaled rows into their edges' targets, and lays b out as one row;
    the third region adds the bias row to every node's sum and takes the larger of that and zero.
  So the third region's result array holds relu (Σ over the edges into v of coef · (x · W)(src) + b) at every node v:
  the reference's first layer. The edge lists and the coefficients are written by none of these five segments, so
  the second layer finds them as the first did.
-/
import proofs.«171188_j60378650247170_1_alg».proof.Proof.Gen.KernelIdeal.Frame
import proofs.«171188_j60378650247170_1_alg».proof.Proof.LayerOps
import proofs.«171188_j60378650247170_1_alg».proof.Proof.Edges
import proofs.«171188_j60378650247170_1_alg».proof.Proof.Layout
import proofs.«171188_j60378650247170_1_alg».proof.Proof.Keep
import proofs.«171188_j60378650247170_1_alg».proof.Proof.Region0
import proofs.«171188_j60378650247170_1_alg».proof.Proof.Region1
import proofs.«171188_j60378650247170_1_alg».proof.Proof.Region2
import Idealize.ShloMosaic.Lib.StableHlo.Run

set_option maxRecDepth 16384

noncomputable section

namespace Cert.KernelIdeal.Gen

open Idealize.ShloMosaic Idealize.ShloMosaic.TcCoe Idealize.SL.Sem
open Idealize.ShloMosaic.Pipeline (Dat)
open Cert.ReferenceIdeal (Layer.srcIdx Layer.dstIdx Layer.coef Layer.project Layer.rowsAt Layer.scaleRows Layer.sumInto Layer.biasRelu Layer.asCol Layer.asRow128 Layer.layer)

variable (m : (ℓ : Loc nD τ sig) → Buf (Elt Ideal) ℓ) (ρ : Dev nD → PrngReg)

/-! ## After the first region: the projected features -/

/-- The first region's result array holds x · W. -/
theorem at4_projected (c : Dev nD) : W4 (F := Ideal) m ρ c (Proc.devRef .tc main_v30) = Layer.project (F := Ideal) (m ((c : Thread nD τ).loc main_arg0)) (m ((c : Thread nD τ).loc main_arg1)) :=
  calc W4 (F := Ideal) m ρ c (Proc.devRef .tc main_v30)
    _ = Layer.project (F := Ideal) (W3 (F := Ideal) m ρ c (Proc.devRef .tc main_arg0)) (W3 (F := Ideal) m ρ c (Proc.devRef .tc main_arg1)) := (W4_arr m ρ c 2).trans (final0 (V3 m ρ) c)
    _ = Layer.project (F := Ideal) (m ((c : Thread nD τ).loc main_arg0)) (m ((c : Thread nD τ).loc main_arg1)) := by rw [at3_x m ρ c, at3_w1 m ρ c]

/-- The first region leaves the sources as they were. -/
theorem at4_src (c : Dev nD) : W4 (F := Ideal) m ρ c (Proc.devRef .tc main_v5) = Layer.srcIdx (F := Ideal) (m ((c : Thread nD τ).loc main_arg7)) :=
  calc W4 (F := Ideal) m ρ c (Proc.devRef .tc main_v5)
    _ = W3 (F := Ideal) m ρ c (Proc.devRef .tc main_v5) := W4_of_ne m ρ c main_v5 (by decide)
    _ = Layer.srcIdx (F := Ideal) (m ((c : Thread nD τ).loc main_arg7)) := at3_src m ρ c

/-- The first region leaves the coefficients as they were. -/
theorem at4_coef (c : Dev nD) : W4 (F := Ideal) m ρ c (Proc.devRef .tc main_v29) = Layer.coef (F := Ideal) (m ((c : Thread nD τ).loc main_arg7)) :=
  calc W4 (F := Ideal) m ρ c (Proc.devRef .tc main_v29)
    _ = W3 (F := Ideal) m ρ c (Proc.devRef .tc main_v29) := W4_of_ne m ρ c main_v29 (by decide)
    _ = Layer.coef (F := Ideal) (m ((c : Thread nD τ).loc main_arg7)) := at3_coef m ρ c

/-! ## After the host stretch that follows: the gathered rows and the coefficient column -/

/-- Every edge's row: row src of x · W. -/
theorem at5_gathered (c : Dev nD) : W5 (F := Ideal) m ρ c (Proc.devRef .tc main_v37) = Layer.rowsAt (F := Ideal) (Layer.project (F := Ideal) (m ((c : Thread nD τ).loc main_arg0)) (m ((c : Thread nD τ).loc main_arg1))) (Layer.srcIdx (F := Ideal) (m ((c : Thread nD τ).loc main_arg7))) := by
  have h : W5 (F := Ideal) m ρ c (Proc.devRef .tc main_v37) = Layer.rowsAt (F := Ideal) (W4 (F := Ideal) m ρ c (Proc.devRef .tc main_v30)) (W4 (F := Ideal) m ρ c (Proc.devRef .tc main_v5)) := by
    show StableHlo.after hostOps1 (W4 (F := Ideal) m ρ c) (Proc.devRef .tc main_v37) = _
    after_results
    rfl
  rw [h, at4_projected m ρ c, at4_src m ρ c]

/-- The coefficients as one column. -/
theorem at5_coefCol (c : Dev nD) : W5 (F := Ideal) m ρ c (Proc.devRef .tc main_v38) = Layer.asCol (F := Ideal) (Layer.coef (F := Ideal) (m ((c : Thread nD τ).loc main_arg7))) := by
  have h : W5 (F := Ideal) m ρ c (Proc.devRef .tc main_v38) = shapeCast S1700000x1 (W4 (F := Ideal) m ρ c (Proc.devRef .tc main_v29)) shapeCasts_S1700000_S1700000x1 := by
    show StableHlo.after hostOps1 (W4 (F := Ideal) m ρ c) (Proc.devRef .tc main_v38) = _
    after_results
    rfl
  rw [h, at4_coef m ρ c, col_eq]

/-! ## After the second region: every gathered row times its edge's coefficient -/

theorem at6_scaled (c : Dev nD) : W6 (F := Ideal) m ρ c (Proc.devRef .tc main_v39) = Layer.scaleRows (F := Ideal) (Layer.rowsAt (F := Ideal) (Layer.project (F := Ideal) (m ((c : Thread nD τ).loc main_arg0)) (m ((c : Thread nD τ).loc main_arg1))) (Layer.srcIdx (F := Ideal) (m ((c : Thread nD τ).loc main_arg7)))) (Layer.asCol (F := Ideal) (Layer.coef (F := Ideal) (m ((c : Thread nD τ).loc main_arg7)))) :=
  calc W6 (F := Ideal) m ρ c (Proc.devRef .tc main_v39)
    _ = Layer.scaleRows (F := Ideal) (W5 (F := Ideal) m ρ c (Proc.devRef .tc main_v37)) (W5 (F := Ideal) m ρ c (Proc.devRef .tc main_v38)) := (W6_arr m ρ c 2).trans (final1 (V5 m ρ) c)
    _ = Layer.scaleRows (F := Ideal) (Layer.rowsAt (F := Ideal) (Layer.project (F := Ideal) (m ((c : Thread nD τ).loc main_arg0)) (m ((c : Thread nD τ).loc main_arg1))) (Layer.srcIdx (F := Ideal) (m ((c : Thread nD τ).loc main_arg7)))) (Layer.asCol (F := Ideal) (Layer.coef (F := Ideal) (m ((c : Thread nD τ).loc main_arg7)))) := by rw [at5_gathered m ρ c, at5_coefCol m ρ c]

/-- The targets are still what the host computed before the first region. -/
theorem at6_dst (c : Dev nD) : W6 (F := Ideal) m ρ c (Proc.devRef .tc main_v6) = Layer.dstIdx (F := Ideal) (m ((c : Thread nD τ).loc main_arg7)) :=
  calc W6 (F := Ideal) m ρ c (Proc.devRef .tc main_v6)
    _ = W5 (F := Ideal) m ρ c (Proc.devRef .tc main_v6) := W6_of_ne m ρ c main_v6 (by decide)
    _ = W4 (F := Ideal) m ρ c (Proc.devRef .tc main_v6) := by host_keeps hostOps1
    _ = W3 (F := Ideal) m ρ c (Proc.devRef .tc main_v6) := W4_of_ne m ρ c main_v6 (by decide)
    _ = Layer.dstIdx (F := Ideal) (m ((c : Thread nD τ).loc main_arg7)) := at3_dst m ρ c

/-! ## After the host stretch that follows: the sums over the edges into every node, and the bias row -/

/-- Row v: the sum of the scaled rows of the edges that end in v. -/
theorem at7_summed (c : Dev nD) : W7 (F := Ideal) m ρ c (Proc.devRef .tc main_v42) = Layer.sumInto (F := Ideal) (Layer.dstIdx (F := Ideal) (m ((c : Thread nD τ).loc main_arg7))) (Layer.scaleRows (F := Ideal) (Layer.rowsAt (F := Ideal) (Layer.project (F := Ideal) (m ((c : Thread nD τ).loc main_arg0)) (m ((c : Thread nD τ).loc main_arg1))) (Layer.srcIdx (F := Ideal) (m ((c : Thread nD τ).loc main_arg7)))) (Layer.asCol (F := Ideal) (Layer.coef (F := Ideal) (m ((c : Thread nD τ).loc main_arg7))))) := by
  have h : W7 (F := Ideal) m ρ c (Proc.devRef .tc main_v42) = Layer.sumInto (F := Ideal) (W6 (F := Ideal) m ρ c (Proc.devRef .tc main_v6)) (W6 (F := Ideal) m ρ c (Proc.devRef .tc main_v39)) := by
    show StableHlo.after hostOps2 (W6 (F := Ideal) m ρ c) (Proc.devRef .tc main_v42) = _
    after_results
    rfl
  rw [h, at6_dst m ρ c, at6_scaled m ρ c]

/-- The bias as one row. -/
theorem at7_biasRow (c : Dev nD) : W7 (F := Ideal) m ρ c (Proc.devRef .tc main_v43) = Layer.asRow128 (F := Ideal) (m ((c : Thread nD τ).loc main_arg2)) := by
  have h : W7 (F := Ideal) m ρ c (Proc.devRef .tc main_v43) = shapeCast S1x128 (W6 (F := Ideal) m ρ c (Proc.devRef .tc main_arg2)) shapeCasts_S128_S1x128 := by
    show StableHlo.after hostOps2 (W6 (F := Ideal) m ρ c) (Proc.devRef .tc main_v43) = _
    after_results
    rfl
  rw [h, at6_b1 m ρ c, row128_eq]

/-! ## After the third region: the first layer -/

theorem at8_hidden (c : Dev nD) : W8 (F := Ideal) m ρ c (Proc.devRef .tc main_v44) = Cert.ReferenceIdeal.Layer.layer (F := Ideal) (m ((c : Thread nD τ).loc main_arg0)) (m ((c : Thread nD τ).loc main_arg1)) (m ((c : Thread nD τ).loc main_arg2)) (m ((c : Thread nD τ).loc main_arg7)) :=
  calc W8 (F := Ideal) m ρ c (Proc.devRef .tc main_v44)
    _ = Layer.biasRelu (F := Ideal) (W7 (F := Ideal) m ρ c (Proc.devRef .tc main_v42)) (W7 (F := Ideal) m ρ c (Proc.devRef .tc main_v43)) := (W8_arr m ρ c 2).trans (final2 (V7 m ρ) c)
    _ = Layer.biasRelu (F := Ideal) (Layer.sumInto (F := Ideal) (Layer.dstIdx (F := Ideal) (m ((c : Thread nD τ).loc main_arg7))) (Layer.scaleRows (F := Ideal) (Layer.rowsAt (F := Ideal) (Layer.project (F := Ideal) (m ((c : Thread nD τ).loc main_arg0)) (m ((c : Thread nD τ).loc main_arg1))) (Layer.srcIdx (F := Ideal) (m ((c : Thread nD τ).loc main_arg7)))) (Layer.asCol (F := Ideal) (Layer.coef (F := Ideal) (m ((c : Thread nD τ).loc main_arg7)))))) (Layer.asRow128 (F := Ideal) (m ((c : Thread nD τ).loc main_arg2))) := by rw [at7_summed m ρ c, at7_biasRow m ρ c]
    _ = Cert.ReferenceIdeal.Layer.layer (F := Ideal) (m ((c : Thread nD τ).loc main_arg0)) (m ((c : Thread nD τ).loc main_arg1)) (m ((c : Thread nD τ).loc main_arg2)) (m ((c : Thread nD τ).loc main_arg7)) := by unfold Cert.ReferenceIdeal.Layer.layer; rfl

/-! ## The edge lists and the coefficients, as the second layer finds them -/

theorem at8_src (c : Dev nD) : W8 (F := Ideal) m ρ c (Proc.devRef .tc main_v5) = Cert.ReferenceIdeal.Layer.srcIdx (F := Ideal) (m ((c : Thread nD τ).loc main_arg7)) :=
  calc W8 (F := Ideal) m ρ c (Proc.devRef .tc main_v5)
    _ = W7 (F := Ideal) m ρ c (Proc.devRef .tc main_v5) := W8_of_ne m ρ c main_v5 (by decide)
    _ = W6 (F := Ideal) m ρ c (Proc.devRef .tc main_v5) := by host_keeps hostOps2
    _ = W5 (F := Ideal) m ρ c (Proc.devRef .tc main_v5) := W6_of_ne m ρ c main_v5 (by decide)
    _ = W4 (F := Ideal) m ρ c (Proc.devRef .tc main_v5) := by host_keeps hostOps1
    _ = W3 (F := Ideal) m ρ c (Proc.devRef .tc main_v5) := W4_of_ne m ρ c main_v5 (by decide)
    _ = Layer.srcIdx (F := Ideal) (m ((c : Thread nD τ).loc main_arg7)) := at3_src m ρ c

theorem at8_dst (c : Dev nD) : W8 (F := Ideal) m ρ c (Proc.devRef .tc main_v6) = Cert.ReferenceIdeal.Layer.dstIdx (F := Ideal) (m ((c : Thread nD τ).loc main_arg7)) :=
  calc W8 (F := Ideal) m ρ c (Proc.devRef .tc main_v6)
    _ = W7 (F := Ideal) m ρ c (Proc.devRef .tc main_v6) := W8_of_ne m ρ c main_v6 (by decide)
    _ = W6 (F := Ideal) m ρ c (Proc.devRef .tc main_v6) := by host_keeps hostOps2
    _ = W5 (F := Ideal) m ρ c (Proc.devRef .tc main_v6) := W6_of_ne m ρ c main_v6 (by decide)
    _ = W4 (F := Ideal) m ρ c (Proc.devRef .tc main_v6) := by host_keeps hostOps1
    _ = W3 (F := Ideal) m ρ c (Proc.devRef .tc main_v6) := W4_of_ne m ρ c main_v6 (by decide)
    _ = Layer.dstIdx (F := Ideal) (m ((c : Thread nD τ).loc main_arg7)) := at3_dst m ρ c

theorem at8_coef (c : Dev nD) : W8 (F := Ideal) m ρ c (Proc.devRef .tc main_v29) = Cert.ReferenceIdeal.Layer.coef (F := Ideal) (m ((c : Thread nD τ).loc main_arg7)) :=
  calc W8 (F := Ideal) m ρ c (Proc.devRef .tc main_v29)
    _ = W7 (F := Ideal) m ρ c (Proc.devRef .tc main_v29) := W8_of_ne m ρ c main_v29 (by decide)
    _ = W6 (F := Ideal) m ρ c (Proc.devRef .tc main_v29) := by host_keeps hostOps2
    _ = W5 (F := Ideal) m ρ c (Proc.devRef .tc main_v29) := W6_of_ne m ρ c main_v29 (by decide)
    _ = W4 (F := Ideal) m ρ c (Proc.devRef .tc main_v29) := by host_keeps hostOps1
    _ = W3 (F := Ideal) m ρ c (Proc.devRef .tc main_v29) := W4_of_ne m ρ c main_v29 (by decide)
    _ = Layer.coef (F := Ideal) (m ((c : Thread nD τ).loc main_arg7)) := at3_coef m ρ c

end Cert.KernelIdeal.Gen

end
-- ==== Proof.Region3.lean ====
/-
  The second layer's matrix product: the same kernel as the first layer's, on the first layer's result and W2. Its
  body carries one more change of shape that changes nothing; block by block it leaves the reference's h · W2.
-/
import proofs.«171188_j60378650247170_1_alg».proof.Proof.Gen.KernelIdeal.Frame
import proofs.«171188_j60378650247170_1_alg».proof.Proof.LayerOps
import proofs.«171188_j60378650247170_1_alg».proof.Proof.Region0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Gen

open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-! ## The block product at an index

The region is the projection of region 0 on other arrays: one block is a 5000 × 128 slab of rows times the whole
128 × 128 weight matrix, and the body differs by a cast of the rows' block to its own shape, which changes nothing. -/

/-- The body's payload at an index: the cast to the same shape and the two changes of format vanish and the product
    into zero is the sum over the 128 contracted entries. -/
theorem k3_pay1_apply (x0 : Vec Ideal S5000x128 .f32) (x1 : Vec Ideal S128x128 .f32) (j : S5000x128.Idx) :
    k3_pay1 (F := Ideal) x0 x1 j = ∑ k : Fin 128, x0 (blockRowAt j k) * x1 (weightColAt j k) := by
  unfold k3_pay1
  refine (blockDot_apply _ _ j).trans (Finset.sum_congr rfl fun k _ => ?_)
  exact congrArg₂ (fun a b : EReal => a * b) (congrFun (shapeCast_self x0 shapeCasts_S5000x128_S5000x128) (blockRowAt j k)) rfl

/-! ## From the blocks to the array -/

/-- The index maps over the grid: the rows' window and the output's window sit on the same block of rows, block `t`
    at point `t`; the weights' window never moves; no window moves along the columns. -/
theorem rowBlocks3 : ∀ t : Fin cfg3.N, win3_0.index t (0 : Fin 2) = win3_2.index t (0 : Fin 2)
    ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the projection of the whole arrays: row r of the block is row
    5000 t + r of the hidden features, and the weights are read whole. -/
theorem flushed3_eq (c : Dev nD) (t : Fin cfg3.N) :
    (dat3 (F := Ideal) V c).flushed 2 t = ((cfg3.win 2).blk t).view.read (Elt Ideal) (Cert.ReferenceIdeal.Layer.project (F := Ideal) (V c main_v44) (V c main_arg3)) := by
  show (cfg3.win 2).cut (grid3.coords t) ((dat3 (F := Ideal) V c).after 2 t) = _
  rw [after3_2]
  unfold out3_2
  rw [View.canon_unit_zero blockOrigin]
  simp only [View.ld_unit_zero (S := S5000x128) blockOrigin, View.ld_unit_zero (S := S128x128) blockOrigin]
  obtain ⟨e0, e1, e2, e3, e4, e5⟩ := rowBlocks3 t
  funext j
  show k3_pay1 (F := Ideal) (iblk3 V c 0 t) (iblk3 V c 1 t) j
    = Cert.ReferenceIdeal.ReadP.val_main_v4 (F := Ideal) (V c main_v44) (V c main_arg3) (((cfg3.win 2).blk t).view.emb j)
  refine (k3_pay1_apply _ _ j).trans (Eq.trans ?_ (Cert.ReferenceIdeal.ReadP.val_main_v4_apply _ _ _).symm)
  refine Finset.sum_congr rfl fun k _ => ?_
  have h0 : ((cfg3.win 0).blk t).view.emb (blockRowAt j k) = Cert.ReferenceIdeal.ReadP.lidx_main_v4 (((cfg3.win 2).blk t).view.emb j) k := by
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 128 + 1 * k.val = k.val; omega
  have h1 : ((cfg3.win 1).blk t).view.emb (weightColAt j k) = Cert.ReferenceIdeal.ReadP.ridx_main_v4 (((cfg3.win 2).blk t).view.emb j) k := by
    funext a; apply Fin.ext
    match a with
    | ⟨0, _⟩ => show win3_1.index t (0 : Fin 2) * 128 + 1 * k.val = k.val; omega
    | ⟨1, _⟩ => show win3_1.index t (1 : Fin 2) * 128 + 1 * (j 1).val = win3_2.index t (1 : Fin 2) * 128 + 1 * (j 1).val; omega
  exact congrArg₂ (fun a b : EReal => a * b) (congrArg (V c main_v44) h0) (congrArg (V c main_arg3) h1)

/-- An index of the array is in point `t`'s block iff each coordinate is in the block's range on its axis. -/
theorem mem_rowBlock3 (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v45).slice (win3_2.rect t)).set ↔ _
  rw [View.set_slice_whole, Rect.mem_set_unit]
  exact Iff.rfl

/-- Every index of the array lies in the block of the point its row selects: row r in block r / 5000. -/
theorem rowBlocks_cover3 (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  let t : Fin cfg3.N := ⟨(i 0).val / 5000, by show (i 0).val / 5000 < 20; omega⟩
  obtain ⟨e0, e1, e2, e3, e4, e5⟩ := rowBlocks3 t
  have e4' : win3_2.index t (0 : Fin 2) = (i 0).val / 5000 := e4
  refine ⟨t, flush3_2 t, ?_⟩
  rw [mem_rowBlock3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- The array the region leaves: the projection of the hidden features by the second layer's weights, whole. -/
theorem final3 (c : Dev nD) : (dat3 (F := Ideal) V c).arrAt 2 cfg3.N = Cert.ReferenceIdeal.Layer.project (F := Ideal) (V c main_v44) (V c main_arg3) :=
  (dat3 (F := Ideal) V c).arrAt_eq_of_cover 2 _ (fun t _ => flushed3_eq V c t) rowBlocks_cover3

end Cert.KernelIdeal.Gen

end
-- ==== Proof.Region4.lean ====
/-
  The second layer's scaling of the messages: the same kernel as the first layer's, on the second layer's gathered
  rows and the same coefficients.
-/
import proofs.«171188_j60378650247170_1_alg».proof.Proof.Gen.KernelIdeal.Frame
import proofs.«171188_j60378650247170_1_alg».proof.Proof.LayerOps
import Idealize.ShloMosaic.Lib.Pipeline.Value
import Idealize.ShloMosaic.Lib.ValueIdx
import Idealize.ShloMosaic.Lib.ValueLayout

set_option maxRecDepth 16384

noncomputable section

namespace Cert.KernelIdeal.Gen

open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- Both accesses of the body start at the origin of their buffers. -/
theorem origin4 : (![0, 0] : Fin 2 → Nat) = fun _ => 0 := funext fun a => by fin_cases a <;> rfl

/-- The scaling payload at an entry: the message entry times the coefficient of its row. -/
theorem scalePayload4_apply (x0 : Vec Ideal S10000x128 .f32) (x1 : Vec Ideal S10000x1 .f32) (j : S10000x128.Idx) (k : S10000x1.Idx)
    (hk0 : (k 0).val = (j 0).val) (hk1 : (k 1).val = 0) :
    k4_pay1 (F := Ideal) x0 x1 j = x0 j * x1 k := by
  unfold k4_pay1
  rw [shapeCast_self, shapeCast_self, mulf_apply]
  congr 1
  exact broadcastTo_apply x1 broadcasts_S10000x1_S10000x128 j k (fun a => match a with
    | ⟨0, _⟩ => by show (k 0).val = if (10000 : Nat) = 1 then 0 else (j 0).val; rw [if_neg (by decide), hk0]
    | ⟨1, _⟩ => by show (k 1).val = if (1 : Nat) = 1 then 0 else (j 1).val; rw [if_pos rfl, hk1])

/-- The reference's scaled messages at an entry i: the message entry there times the coefficient of row i, the two
    read at any indices i0 and k that name that entry and that row. -/
theorem scaleRows4_apply (msg : (⟨S1700000x128, .f32⟩ : BufTy).Contents (Elt Ideal)) (ccol : (⟨S1700000x1, .f32⟩ : BufTy).Contents (Elt Ideal))
    (i i0 : S1700000x128.Idx) (k : S1700000x1.Idx) (hi : i0 = i) (hk0 : (k 0).val = (i 0).val) (hk1 : (k 1).val = 0) :
    msg i0 * ccol k = Cert.ReferenceIdeal.Layer.scaleRows (F := Ideal) msg ccol i := by
  subst hi
  unfold Cert.ReferenceIdeal.Layer.scaleRows
  rw [mulf_apply]
  congr 1
  exact (broadcastInDim_apply _ Cert.ReferenceIdeal.Gen.bcast_S1700000x1_S1700000x128_0_1 ccol i0 k (fun a => match a with
    | ⟨0, _⟩ => by show (k 0).val = if (1700000 : Nat) = 1 then 0 else (i0 0).val; rw [if_neg (by decide), hk0]
    | ⟨1, _⟩ => by show (k 1).val = if (1 : Nat) = 1 then 0 else (i0 1).val; rw [if_pos rfl, hk1])).symm

/-- The three windows move together: at point t each takes block (t, 0) of its array. -/
theorem blockIndex4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- What point t writes back is block t of the scaled messages of the arrays as the region finds them. -/
theorem flushed4_eq (c : Dev nD) (t : Fin cfg4.N) :
    (dat4 (F := Ideal) V c).flushed 2 t = ((cfg4.win 2).blk t).view.read (Elt Ideal) (Cert.ReferenceIdeal.Layer.scaleRows (F := Ideal) (V c main_v52) (V c main_v53)) := by
  show (cfg4.win 2).cut (grid4.coords t) ((dat4 V c).after 2 t) = _
  rw [after4_2]
  unfold out4_2
  rw [View.canon_unit_zero origin4]
  simp only [View.ld_unit_zero (S := S10000x128) origin4, View.ld_unit_zero (S := S10000x1) origin4]
  obtain ⟨e0, e1, e2, e3, e4, e5⟩ := blockIndex4 t
  funext j
  have hj0 : (j 0).val < 10000 := (j 0).isLt
  have hj1 : (j 1).val < 128 := (j 1).isLt
  let k : S10000x1.Idx := fun a => match a with
    | ⟨0, _⟩ => ⟨(j 0).val, hj0⟩
    | ⟨1, _⟩ => ⟨0, Nat.one_pos⟩
  show k4_pay1 (F := Ideal) (iblk4 V c 0 t) (iblk4 V c 1 t) j = Cert.ReferenceIdeal.Layer.scaleRows (F := Ideal) (V c main_v52) (V c main_v53) (((cfg4.win 2).blk t).view.emb j)
  have h0 : ((cfg4.win 0).blk t).view.emb j = ((cfg4.win 2).blk t).view.emb j := by
    funext a; apply Fin.ext
    match a with
    | ⟨0, _⟩ => show win4_0.index t (0 : Fin 2) * 10000 + 1 * (j 0).val = win4_2.index t (0 : Fin 2) * 10000 + 1 * (j 0).val; omega
    | ⟨1, _⟩ => show win4_0.index t (1 : Fin 2) * 128 + 1 * (j 1).val = win4_2.index t (1 : Fin 2) * 128 + 1 * (j 1).val; omega
  refine (scalePayload4_apply (iblk4 V c 0 t) (iblk4 V c 1 t) j k rfl rfl).trans
    (scaleRows4_apply (V c main_v52) (V c main_v53) (((cfg4.win 2).blk t).view.emb j) (((cfg4.win 0).blk t).view.emb j) (((cfg4.win 1).blk t).view.emb k) h0 ?_ ?_)
  · show win4_1.index t (0 : Fin 2) * 10000 + 1 * (j 0).val = win4_2.index t (0 : Fin 2) * 10000 + 1 * (j 0).val
    omega
  · show win4_1.index t (1 : Fin 2) * 1 + 1 * 0 = 0
    omega

/-- An entry of the array is in point t's block iff each coordinate is in the block's range on its axis. -/
theorem mem_block4 (t : Fin cfg4.N) (i : S1700000x128.Idx) :
    i ∈ ((cfg4.win 2).blk t).view.set ↔ ∀ a : Fin 2, win4_2.index t a * S10000x128.size a ≤ (i a).val ∧ (i a).val < win4_2.index t a * S10000x128.size a + S10000x128.size a := by
  show i ∈ ((View.whole main_v54).slice (win4_2.rect t)).set ↔ _
  rw [View.set_slice_whole, Rect.mem_set_unit]
  exact Iff.rfl

/-- Every row lies in the block of the point that is its number divided by the block's height, and every point writes back. -/
theorem cover4 (i : S1700000x128.Idx) : ∃ t : Fin cfg4.N, (cfg4.win 2).flush t = true ∧ i ∈ ((cfg4.win 2).blk t).view.set := by
  have hi0 : (i 0).val < 1700000 := (i 0).isLt
  have hi1 : (i 1).val < 128 := (i 1).isLt
  have hN : cfg4.N = 170 := rfl
  let t : Fin cfg4.N := ⟨(i 0).val / 10000, by rw [hN]; omega⟩
  have ht : t.val = (i 0).val / 10000 := rfl
  obtain ⟨e0, e1, e2, e3, e4, e5⟩ := blockIndex4 t
  refine ⟨t, flush4_2 t, ?_⟩
  rw [mem_block4]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 128 ≤ (i 1).val ∧ (i 1).val < win4_2.index t (1 : Fin 2) * 128 + 128; omega

/-- The array after the region: the scaled messages of the two arrays the region read. -/
theorem final4 (c : Dev nD) : (dat4 (F := Ideal) V c).arrAt 2 cfg4.N = Cert.ReferenceIdeal.Layer.scaleRows (F := Ideal) (V c main_v52) (V c main_v53) :=
  (dat4 (F := Ideal) V c).arrAt_eq_of_cover 2 _ (fun t _ => flushed4_eq V c t) (cover4)

end Cert.KernelIdeal.Gen

end
-- ==== Proof.Region5.lean ====
/-
  The second layer's bias and relu: the same kernel as the first layer's, on the second layer's sums and bias.
-/
import proofs.«171188_j60378650247170_1_alg».proof.Proof.Gen.KernelIdeal.Frame
import proofs.«171188_j60378650247170_1_alg».proof.Proof.LayerOps
import Idealize.ShloMosaic.Lib.Pipeline.Value
import Idealize.ShloMosaic.Lib.ValueIdx
import Idealize.ShloMosaic.Lib.ValueLayout

set_option maxRecDepth 16384

noncomputable section

namespace Cert.KernelIdeal.Gen

open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- Both accesses of the body start at the origin of their buffers. -/
theorem origin5 : (![0, 0] : Fin 2 → Nat) = fun _ => 0 := funext fun a => by fin_cases a <;> rfl

/-- The bias-and-relu payload at an entry: the larger of zero and the aggregated entry plus the bias of its column. -/
theorem biasReluPayload5_apply (x0 : Vec Ideal S5000x128 .f32) (x1 : Vec Ideal S1x128 .f32) (j : S5000x128.Idx) (k : S1x128.Idx)
    (hk0 : (k 0).val = 0) (hk1 : (k 1).val = (j 1).val) :
    k5_pay1 (F := Ideal) x0 x1 j = max (x0 j + x1 k) (Ideal.ofBits .f32 0x00000000#32) := by
  unfold k5_pay1
  rw [shapeCast_self, shapeCast_self, maximumf_apply, addf_apply, broadcast_apply]
  have hb : broadcastTo S5000x128 x1 broadcasts_S1x128_S5000x128 j = x1 k :=
    broadcastTo_apply x1 broadcasts_S1x128_S5000x128 j k (fun a => match a with
      | ⟨0, _⟩ => by show (k 0).val = if (1 : Nat) = 1 then 0 else (j 0).val; rw [if_pos rfl, hk0]
      | ⟨1, _⟩ => by show (k 1).val = if (128 : Nat) = 1 then 0 else (j 1).val; rw [if_neg (by decide), hk1])
  rw [hb]
  rfl

/-- The reference's bias and relu at an entry i: the larger of zero and the aggregated entry there plus the bias of
    column i, the two read at any indices i0 and k that name that entry and that column. -/
theorem biasRelu5_apply (agg : (⟨S100000x128, .f32⟩ : BufTy).Contents (Elt Ideal)) (brow : (⟨S1x128, .f32⟩ : BufTy).Contents (Elt Ideal))
    (i i0 : S100000x128.Idx) (k : S1x128.Idx) (hi : i0 = i) (hk0 : (k 0).val = 0) (hk1 : (k 1).val = (i 1).val) :
    max (agg i0 + brow k) (Ideal.ofBits .f32 0x00000000#32) = Cert.ReferenceIdeal.Layer.biasRelu (F := Ideal) agg brow i := by
  subst hi
  unfold Cert.ReferenceIdeal.Layer.biasRelu
  rw [maximumf_apply, addf_apply]
  have hb : broadcastInDim Cert.ReferenceIdeal.S100000x128 ![0, 1] Cert.ReferenceIdeal.Gen.bcast_S1x128_S100000x128_0_1 brow i0 = brow k :=
    broadcastInDim_apply _ Cert.ReferenceIdeal.Gen.bcast_S1x128_S100000x128_0_1 brow i0 k (fun a => match a with
      | ⟨0, _⟩ => by show (k 0).val = if (1 : Nat) = 1 then 0 else (i0 0).val; rw [if_pos rfl, hk0]
      | ⟨1, _⟩ => by show (k 1).val = if (128 : Nat) = 1 then 0 else (i0 1).val; rw [if_neg (by decide), hk1])
  rw [hb]
  rfl

/-- The aggregate's and the result's windows move together, block (t, 0) at point t; the bias row's window stays at
    its one block. -/
theorem blockIndex5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point t writes back is block t of bias and relu of the arrays as the region finds them. -/
theorem flushed5_eq (c : Dev nD) (t : Fin cfg5.N) :
    (dat5 (F := Ideal) V c).flushed 2 t = ((cfg5.win 2).blk t).view.read (Elt Ideal) (Cert.ReferenceIdeal.Layer.biasRelu (F := Ideal) (V c main_v57) (V c main_v58)) := by
  show (cfg5.win 2).cut (grid5.coords t) ((dat5 V c).after 2 t) = _
  rw [after5_2]
  unfold out5_2
  rw [View.canon_unit_zero origin5]
  simp only [View.ld_unit_zero (S := S5000x128) origin5, View.ld_unit_zero (S := S1x128) origin5]
  obtain ⟨e0, e1, e2, e3, e4, e5⟩ := blockIndex5 t
  funext j
  have hj0 : (j 0).val < 5000 := (j 0).isLt
  have hj1 : (j 1).val < 128 := (j 1).isLt
  let k : S1x128.Idx := fun a => match a with
    | ⟨0, _⟩ => ⟨0, Nat.one_pos⟩
    | ⟨1, _⟩ => ⟨(j 1).val, hj1⟩
  show k5_pay1 (F := Ideal) (iblk5 V c 0 t) (iblk5 V c 1 t) j = Cert.ReferenceIdeal.Layer.biasRelu (F := Ideal) (V c main_v57) (V c main_v58) (((cfg5.win 2).blk t).view.emb j)
  have h0 : ((cfg5.win 0).blk t).view.emb j = ((cfg5.win 2).blk t).view.emb j := by
    funext a; apply Fin.ext
    match a with
    | ⟨0, _⟩ => show win5_0.index t (0 : Fin 2) * 5000 + 1 * (j 0).val = win5_2.index t (0 : Fin 2) * 5000 + 1 * (j 0).val; omega
    | ⟨1, _⟩ => show win5_0.index t (1 : Fin 2) * 128 + 1 * (j 1).val = win5_2.index t (1 : Fin 2) * 128 + 1 * (j 1).val; omega
  refine (biasReluPayload5_apply (iblk5 V c 0 t) (iblk5 V c 1 t) j k rfl rfl).trans
    (biasRelu5_apply (V c main_v57) (V c main_v58) (((cfg5.win 2).blk t).view.emb j) (((cfg5.win 0).blk t).view.emb j) (((cfg5.win 1).blk t).view.emb k) h0 ?_ ?_)
  · show win5_1.index t (0 : Fin 2) * 1 + 1 * 0 = 0
    omega
  · show win5_1.index t (1 : Fin 2) * 128 + 1 * (j 1).val = win5_2.index t (1 : Fin 2) * 128 + 1 * (j 1).val
    omega

/-- An entry of the array is in point t's block iff each coordinate is in the block's range on its axis. -/
theorem mem_block5 (t : Fin cfg5.N) (i : S100000x128.Idx) :
    i ∈ ((cfg5.win 2).blk t).view.set ↔ ∀ a : Fin 2, win5_2.index t a * S5000x128.size a ≤ (i a).val ∧ (i a).val < win5_2.index t a * S5000x128.size a + S5000x128.size a := by
  show i ∈ ((View.whole main_v59).slice (win5_2.rect t)).set ↔ _
  rw [View.set_slice_whole, Rect.mem_set_unit]
  exact Iff.rfl

/-- Every row lies in the block of the point that is its number divided by the block's height, and every point writes back. -/
theorem cover5 (i : S100000x128.Idx) : ∃ t : Fin cfg5.N, (cfg5.win 2).flush t = true ∧ i ∈ ((cfg5.win 2).blk t).view.set := by
  have hi0 : (i 0).val < 100000 := (i 0).isLt
  have hi1 : (i 1).val < 128 := (i 1).isLt
  have hN : cfg5.N = 20 := rfl
  let t : Fin cfg5.N := ⟨(i 0).val / 5000, by rw [hN]; omega⟩
  have ht : t.val = (i 0).val / 5000 := rfl
  obtain ⟨e0, e1, e2, e3, e4, e5⟩ := blockIndex5 t
  refine ⟨t, flush5_2 t, ?_⟩
  rw [mem_block5]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 128 ≤ (i 1).val ∧ (i 1).val < win5_2.index t (1 : Fin 2) * 128 + 128; omega

/-- The array after the region: bias and relu of the two arrays the region read. -/
theorem final5 (c : Dev nD) : (dat5 (F := Ideal) V c).arrAt 2 cfg5.N = Cert.ReferenceIdeal.Layer.biasRelu (F := Ideal) (V c main_v57) (V c main_v58) :=
  (dat5 (F := Ideal) V c).arrAt_eq_of_cover 2 _ (fun t _ => flushed5_eq V c t) (cover5)

end Cert.KernelIdeal.Gen

end
-- ==== Proof.Region6.lean ====
/-
  The read-out. In 20 blocks of 5000 rows the region multiplies a block of the second hidden state by the whole of the
  128 × 64 weights into a zero accumulator and adds the bias row to every row: entry (r, j) is the sum over k of
  h (r, k) · Wf (k, j), plus bf j — the reference's h · Wf + bf at that row, the bias laid along the nodes.
-/
import proofs.«171188_j60378650247170_1_alg».proof.Proof.Gen.KernelIdeal.Frame
import proofs.«171188_j60378650247170_1_alg».proof.Proof.LayerOps
import proofs.«171188_j60378650247170_1_alg».proof.Proof.Region0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Gen

open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-! ## The read-out block at an index

One block of the region is a 5000 × 128 slab of rows times the whole 128 × 64 read-out matrix, plus the bias row laid
along the 5000 rows. At the ideal values a change of float format is the identity and a product accumulated into zero
is the plain sum over the contracted axis, so entry (r, q) of the block's result is Σ k, x (r, k) · w (k, q) + b (0, q). -/

/-- The left operand's index at output index `i` and contraction index `q`: the output's row on axis 0, -/
theorem outDot_lhs_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- … and the contraction index on axis 1. -/
theorem outDot_lhs_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
/-- The right operand's index: the contraction index on axis 0, -/
theorem outDot_rhs_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
/-- … and the output's column on axis 1. -/
theorem outDot_rhs_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- Entry (row of `j`, `k`) of a 5000 × 128 block, for `j` an index of the 5000 × 64 result. -/
abbrev outRowAt (j : S5000x64.Idx) (k : Fin 128) : S5000x128.Idx := fun a => match a with
  | ⟨0, _⟩ => ⟨(j 0).val, (j 0).isLt⟩
  | ⟨1, _⟩ => ⟨k.val, k.isLt⟩
/-- Entry (`k`, column of `j`) of the 128 × 64 read-out weights. -/
abbrev outColAt (j : S5000x64.Idx) (k : Fin 128) : S128x64.Idx := fun a => match a with
  | ⟨0, _⟩ => ⟨k.val, k.isLt⟩
  | ⟨1, _⟩ => ⟨(j 1).val, (j 1).isLt⟩
/-- Entry (0, column of `j`) of the bias row. -/
abbrev biasAt (j : S5000x64.Idx) : S1x64.Idx := fun a => match a with
  | ⟨0, _⟩ => ⟨0, Nat.one_pos⟩
  | ⟨1, _⟩ => ⟨(j 1).val, (j 1).isLt⟩

/-- The block product into a zero accumulator, read at an index: the sum over the 128 contracted entries. -/
theorem outDot_apply (x : FVec Ideal S5000x128 .bf16) (w : FVec Ideal S128x64 .bf16) (j : S5000x64.Idx) :
    matmul (F := Ideal) dot_S5000x128_S128x64_S5000x64_1_0_0_1_n_n none x w (constant (F := Ideal) S5000x64 .f32 0x00000000#32) j
      = ∑ k : Fin 128, x (outRowAt j k) * w (outColAt j k) := by
  simp only [matmul]
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx j ((ValueIdx.contrEquiv1 dot_S5000x128_S128x64_S5000x64_1_0_0_1_n_n 128 rfl rfl).symm k) = outRowAt j k := funext fun a => Fin.ext (by
    match a with
    | ⟨0, _⟩ => exact outDot_lhs_0 _ _
    | ⟨1, _⟩ => exact (outDot_lhs_1 _ _).trans hk)
  have er : dot_S5000x128_S128x64_S5000x64_1_0_0_1_n_n.rhsIdx j ((ValueIdx.contrEquiv1 dot_S5000x128_S128x64_S5000x64_1_0_0_1_n_n 128 rfl rfl).symm k) = outColAt j k := funext fun a => Fin.ext (by
    match a with
    | ⟨0, _⟩ => exact (outDot_rhs_0 _ _).trans hk
    | ⟨1, _⟩ => exact outDot_rhs_1 _ _)
  rw [el, er]

/-- The bias row laid along the rows of the block, read at an index: the row's entry in the index's column. -/
theorem biasRows_apply (b : Vec Ideal S1x64 .f32) (j : S5000x64.Idx) :
    broadcastTo S5000x64 (shapeCast S1x64 b shapeCasts_S1x64_S1x64) broadcasts_S1x64_S5000x64 j = b (biasAt j) := by
  rw [shapeCast_self]
  exact broadcastTo_apply b broadcasts_S1x64_S5000x64 j (biasAt j) (fun a => match a with
    | ⟨0, _⟩ => by show 0 = if (1 : Nat) = 1 then 0 else (j 0).val; rw [if_pos rfl]
    | ⟨1, _⟩ => by show (j 1).val = if (64 : Nat) = 1 then 0 else (j 1).val; rw [if_neg (by decide)])

/-- The body's payload at an index: casts to the same shape and changes of format vanish, the product into zero is
    the sum, and the bias row contributes its entry in the index's column. -/
theorem k6_pay1_apply (x0 : Vec Ideal S5000x128 .f32) (x1 : Vec Ideal S128x64 .f32) (x2 : Vec Ideal S1x64 .f32) (j : S5000x64.Idx) :
    k6_pay1 (F := Ideal) x0 x1 x2 j = (∑ k : Fin 128, x0 (outRowAt j k) * x1 (outColAt j k)) + x2 (biasAt j) := by
  unfold k6_pay1
  show FloatOps.addf _ _ = _
  rw [Ideal.addf_def, outDot_apply, biasRows_apply]
  refine congrArg (· + x2 (biasAt j)) (Finset.sum_congr rfl fun k _ => ?_)
  exact congrArg₂ (fun a b : EReal => a * b) (congrFun (shapeCast_self x0 shapeCasts_S5000x128_S5000x128) (outRowAt j k)) rfl

/-! ## The reference's read-out at an index -/

/-- The read-out of whole arrays at an index: the sum over the 128 contracted entries plus the bias row's entry in
    the index's column. -/
theorem projectOut_apply (h : (⟨S100000x128, .f32⟩ : BufTy).Contents (Elt Ideal)) (w : (⟨S128x64, .f32⟩ : BufTy).Contents (Elt Ideal)) (brow : (⟨S1x64, .f32⟩ : BufTy).Contents (Elt Ideal)) (i : S100000x64.Idx) :
    Cert.ReferenceIdeal.Layer.projectOut (F := Ideal) h w brow i
      = (∑ k : Fin 128, h (Cert.ReferenceIdeal.ReadP.lidx_main_v92 i k) * w (Cert.ReferenceIdeal.ReadP.ridx_main_v92 i k)) + brow (Cert.ReferenceIdeal.ReadP.idx_main_v94 i) := by
  unfold Cert.ReferenceIdeal.Layer.projectOut
  show FloatOps.addf _ _ = _
  rw [Ideal.addf_def]
  have hb : ∀ hbc : S1x64.BroadcastsInDim S100000x64 (![0, 1] : Fin 2 → Fin S100000x64.rank),
      broadcastInDim S100000x64 ![0, 1] hbc brow i = brow (Cert.ReferenceIdeal.ReadP.idx_main_v94 i) := fun hbc =>
    broadcastInDim_apply _ hbc brow i (Cert.ReferenceIdeal.ReadP.idx_main_v94 i) (fun a => match a with
      | ⟨0, _⟩ => by show 0 = if (1 : Nat) = 1 then 0 else (i 0).val; rw [if_pos rfl]
      | ⟨1, _⟩ => by show (i 1).val = if (64 : Nat) = 1 then 0 else (i 1).val; rw [if_neg (by decide)])
  rw [hb]
  refine congrArg (· + brow (Cert.ReferenceIdeal.ReadP.idx_main_v94 i)) ?_
  simp only [Host.dotGeneral]
  rw [Ideal.dotGeneral_apply, ← Equiv.sum_comp (ValueIdx.contrEquiv1 Cert.ReferenceIdeal.dot_S100000x128_S128x64_S100000x64_1_0_0_1_n_n 128 rfl rfl).symm]
  refine Finset.sum_congr rfl fun k _ => ?_
  have hk := ValueIdx.contrEquiv1_symm_val Cert.ReferenceIdeal.dot_S100000x128_S128x64_S100000x64_1_0_0_1_n_n 128 rfl rfl k
  have el : Cert.ReferenceIdeal.dot_S100000x128_S128x64_S100000x64_1_0_0_1_n_n.lhsIdx i ((ValueIdx.contrEquiv1 Cert.ReferenceIdeal.dot_S100000x128_S128x64_S100000x64_1_0_0_1_n_n 128 rfl rfl).symm k) = Cert.ReferenceIdeal.ReadP.lidx_main_v92 i k := funext fun a => Fin.ext (by
    match a with
    | ⟨0, _⟩ => exact Cert.ReferenceIdeal.ReadP.lhs_main_v92_0 _ _
    | ⟨1, _⟩ => exact (Cert.ReferenceIdeal.ReadP.lhs_main_v92_1 _ _).trans hk)
  have er : Cert.ReferenceIdeal.dot_S100000x128_S128x64_S100000x64_1_0_0_1_n_n.rhsIdx i ((ValueIdx.contrEquiv1 Cert.ReferenceIdeal.dot_S100000x128_S128x64_S100000x64_1_0_0_1_n_n 128 rfl rfl).symm k) = Cert.ReferenceIdeal.ReadP.ridx_main_v92 i k := funext fun a => Fin.ext (by
    match a with
    | ⟨0, _⟩ => exact (Cert.ReferenceIdeal.ReadP.rhs_main_v92_0 _ _).trans hk
    | ⟨1, _⟩ => exact Cert.ReferenceIdeal.ReadP.rhs_main_v92_1 _ _)
  rw [el, er]

/-! ## From the blocks to the array -/

/-- The index maps over the grid: the rows' window and the output's window sit on the same block of rows, block `t`
    at point `t`; the weights' and the bias row's windows never move; no window moves along the columns. -/
theorem rowBlocks6 : ∀ t : Fin cfg6.N, win6_0.index t (0 : Fin 2) = win6_3.index t (0 : Fin 2)
    ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- What point `t` writes back is block `t` of the read-out of the whole arrays: row r of the block is row
    5000 t + r of the hidden features; the weights and the bias row are read whole. -/
theorem flushed6_eq (c : Dev nD) (t : Fin cfg6.N) :
    (dat6 (F := Ideal) V c).flushed 3 t = ((cfg6.win 3).blk t).view.read (Elt Ideal) (Cert.ReferenceIdeal.Layer.projectOut (F := Ideal) (V c main_v59) (V c main_arg5) (V c main_v60)) := by
  show (cfg6.win 3).cut (grid6.coords t) ((dat6 (F := Ideal) V c).after 3 t) = _
  rw [after6_3]
  unfold out6_3
  rw [View.canon_unit_zero blockOrigin]
  simp only [View.ld_unit_zero (S := S5000x128) blockOrigin, View.ld_unit_zero (S := S128x64) blockOrigin, View.ld_unit_zero (S := S1x64) blockOrigin]
  obtain ⟨e0, e1, e2, e3, e4, e5, e6, e7⟩ := rowBlocks6 t
  funext j
  show k6_pay1 (F := Ideal) (iblk6 V c 0 t) (iblk6 V c 1 t) (iblk6 V c 2 t) j
    = Cert.ReferenceIdeal.Layer.projectOut (F := Ideal) (V c main_v59) (V c main_arg5) (V c main_v60) (((cfg6.win 3).blk t).view.emb j)
  refine (k6_pay1_apply _ _ _ j).trans (Eq.trans ?_ (projectOut_apply _ _ _ _).symm)
  have h0 : ∀ k : Fin 128, ((cfg6.win 0).blk t).view.emb (outRowAt j k) = Cert.ReferenceIdeal.ReadP.lidx_main_v92 (((cfg6.win 3).blk t).view.emb j) k := fun k => by
    funext a; apply Fin.ext
    match a with
    | ⟨0, _⟩ => show win6_0.index t (0 : Fin 2) * 5000 + 1 * (j 0).val = win6_3.index t (0 : Fin 2) * 5000 + 1 * (j 0).val; omega
    | ⟨1, _⟩ => show win6_0.index t (1 : Fin 2) * 128 + 1 * k.val = k.val; omega
  have h1 : ∀ k : Fin 128, ((cfg6.win 1).blk t).view.emb (outColAt j k) = Cert.ReferenceIdeal.ReadP.ridx_main_v92 (((cfg6.win 3).blk t).view.emb j) k := fun k => by
    funext a; apply Fin.ext
    match a with
    | ⟨0, _⟩ => show win6_1.index t (0 : Fin 2) * 128 + 1 * k.val = k.val; omega
    | ⟨1, _⟩ => show win6_1.index t (1 : Fin 2) * 64 + 1 * (j 1).val = win6_3.index t (1 : Fin 2) * 64 + 1 * (j 1).val; omega
  have h2 : ((cfg6.win 2).blk t).view.emb (biasAt j) = Cert.ReferenceIdeal.ReadP.idx_main_v94 (((cfg6.win 3).blk t).view.emb j) := by
    funext a; apply Fin.ext
    match a with
    | ⟨0, _⟩ => show win6_2.index t (0 : Fin 2) * 1 + 1 * 0 = 0; omega
    | ⟨1, _⟩ => show win6_2.index t (1 : Fin 2) * 64 + 1 * (j 1).val = win6_3.index t (1 : Fin 2) * 64 + 1 * (j 1).val; omega
  exact congrArg₂ (fun a b : EReal => a + b)
    (Finset.sum_congr rfl fun k _ => congrArg₂ (fun a b : EReal => a * b) (congrArg (V c main_v59) (h0 k)) (congrArg (V c main_arg5) (h1 k)))
    (congrArg (V c main_v60) h2)

/-- An index of the array is in point `t`'s block iff each coordinate is in the block's range on its axis. -/
theorem mem_rowBlock6 (t : Fin cfg6.N) (i : S100000x64.Idx) :
    i ∈ ((cfg6.win 3).blk t).view.set ↔ ∀ a : Fin 2, win6_3.index t a * S5000x64.size a ≤ (i a).val ∧ (i a).val < win6_3.index t a * S5000x64.size a + S5000x64.size a := by
  show i ∈ ((View.whole main_v61).slice (win6_3.rect t)).set ↔ _
  rw [View.set_slice_whole, Rect.mem_set_unit]
  exact Iff.rfl

/-- Every index of the array lies in the block of the point its row selects: row r in block r / 5000. -/
theorem rowBlocks_cover6 (i : S100000x64.Idx) :
    ∃ t : Fin cfg6.N, (cfg6.win 3).flush t = true ∧ i ∈ ((cfg6.win 3).blk t).view.set := by
  have hi0 : (i 0).val < 100000 := (i 0).isLt
  have hi1 : (i 1).val < 64 := (i 1).isLt
  let t : Fin cfg6.N := ⟨(i 0).val / 5000, by show (i 0).val / 5000 < 20; omega⟩
  obtain ⟨e0, e1, e2, e3, e4, e5, e6, e7⟩ := rowBlocks6 t
  have e6' : win6_3.index t (0 : Fin 2) = (i 0).val / 5000 := e6
  refine ⟨t, flush6_3 t, ?_⟩
  rw [mem_rowBlock6]
  intro a
  match a with
  | ⟨0, _⟩ => show win6_3.index t (0 : Fin 2) * 5000 ≤ (i 0).val ∧ (i 0).val < win6_3.index t (0 : Fin 2) * 5000 + 5000; omega
  | ⟨1, _⟩ => show win6_3.index t (1 : Fin 2) * 64 ≤ (i 1).val ∧ (i 1).val < win6_3.index t (1 : Fin 2) * 64 + 64; omega

/-- The array the region leaves: the read-out of the hidden features, whole. -/
theorem final6 (c : Dev nD) : (dat6 (F := Ideal) V c).arrAt 3 cfg6.N = Cert.ReferenceIdeal.Layer.projectOut (F := Ideal) (V c main_v59) (V c main_arg5) (V c main_v60) :=
  (dat6 (F := Ideal) V c).arrAt_eq_of_cover 3 _ (fun t _ => flushed6_eq V c t) rowBlocks_cover6

end Cert.KernelIdeal.Gen

end
-- ==== Proof.Walk2.lean ====
/-
  The second layer and the read-out, followed through @main's last seven segments. On entry the buffer written by the
  first layer's bias-and-relu region holds the reference's first layer h₁, and the edge lists and the coefficients,
  written once before the first region, are still the reference's. Region 3 leaves h₁ · W2 in its output, the host
  gathers its rows at the sources, region 4 scales them by the coefficients, the host sums them into the targets,
  region 5 adds the bias and takes the positive part: its output is the reference's second layer h₂. The host lays the
  last bias out as a row and region 6 leaves h₂ · Wf + bf, the network's output. The weights and biases are arguments
  no segment writes, so each is read as given wherever it is used.
-/
import proofs.«171188_j60378650247170_1_alg».proof.Proof.Gen.KernelIdeal.Frame
import proofs.«171188_j60378650247170_1_alg».proof.Proof.LayerOps
import proofs.«171188_j60378650247170_1_alg».proof.Proof.Layout
import proofs.«171188_j60378650247170_1_alg».proof.Proof.Keep
import proofs.«171188_j60378650247170_1_alg».proof.Proof.Walk1
import proofs.«171188_j60378650247170_1_alg».proof.Proof.Region3
import proofs.«171188_j60378650247170_1_alg».proof.Proof.Region4
import proofs.«171188_j60378650247170_1_alg».proof.Proof.Region5
import proofs.«171188_j60378650247170_1_alg».proof.Proof.Region6
import Idealize.ShloMosaic.Lib.StableHlo.Run

set_option maxRecDepth 16384

noncomputable section

namespace Cert.KernelIdeal.Gen

open Idealize.ShloMosaic Idealize.ShloMosaic.TcCoe Idealize.SL.Sem
open Idealize.ShloMosaic.Pipeline (Dat)
open Cert.ReferenceIdeal (Layer.srcIdx Layer.dstIdx Layer.coef Layer.project Layer.rowsAt Layer.scaleRows Layer.sumInto Layer.biasRelu Layer.projectOut Layer.asCol Layer.asRow128 Layer.asRow64 Layer.layer Layer.output)

variable (m : (ℓ : Loc nD τ sig) → Buf (Elt Ideal) ℓ) (ρ : Dev nD → PrngReg)

/-! ## The arguments the second layer and the read-out read, at the segments that read them -/

theorem at8_w2 (c : Dev nD) : W8 (F := Ideal) m ρ c (Proc.devRef .tc main_arg3) = (m ((c : Thread nD τ).loc main_arg3)) :=
  calc W8 (F := Ideal) m ρ c (Proc.devRef .tc main_arg3)
    _ = W7 (F := Ideal) m ρ c (Proc.devRef .tc main_arg3) := W8_of_ne m ρ c main_arg3 (by decide)
    _ = W6 (F := Ideal) m ρ c (Proc.devRef .tc main_arg3) := by host_keeps hostOps2
    _ = W5 (F := Ideal) m ρ c (Proc.devRef .tc main_arg3) := W6_of_ne m ρ c main_arg3 (by decide)
    _ = W4 (F := Ideal) m ρ c (Proc.devRef .tc main_arg3) := by host_keeps hostOps1
    _ = W3 (F := Ideal) m ρ c (Proc.devRef .tc main_arg3) := W4_of_ne m ρ c main_arg3 (by decide)
    _ = W2 (F := Ideal) m ρ c (Proc.devRef .tc main_arg3) := by host_keeps hostOps0_2
    _ = W1 (F := Ideal) m ρ c (Proc.devRef .tc main_arg3) := by host_keeps hostOps0_1
    _ = W0 (F := Ideal) m ρ c (Proc.devRef .tc main_arg3) := by host_keeps hostOps0
    _ = (m ((c : Thread nD τ).loc main_arg3)) := rfl

theorem at11_b2 (c : Dev nD) : W11 (F := Ideal) m ρ c (Proc.devRef .tc main_arg4) = (m ((c : Thread nD τ).loc main_arg4)) :=
  calc W11 (F := Ideal) m ρ c (Proc.devRef .tc main_arg4)
    _ = W10 (F := Ideal) m ρ c (Proc.devRef .tc main_arg4) := W11_of_ne m ρ c main_arg4 (by decide)
    _ = W9 (F := Ideal) m ρ c (Proc.devRef .tc main_arg4) := by host_keeps hostOps4
    _ = W8 (F := Ideal) m ρ c (Proc.devRef .tc main_arg4) := W9_of_ne m ρ c main_arg4 (by decide)
    _ = W7 (F := Ideal) m ρ c (Proc.devRef .tc main_arg4) := W8_of_ne m ρ c main_arg4 (by decide)
    _ = W6 (F := Ideal) m ρ c (Proc.devRef .tc main_arg4) := by host_keeps hostOps2
    _ = W5 (F := Ideal) m ρ c (Proc.devRef .tc main_arg4) := W6_of_ne m ρ c main_arg4 (by decide)
    _ = W4 (F := Ideal) m ρ c (Proc.devRef .tc main_arg4) := by host_keeps hostOps1
    _ = W3 (F := Ideal) m ρ c (Proc.devRef .tc main_arg4) := W4_of_ne m ρ c main_arg4 (by decide)
    _ = W2 (F := Ideal) m ρ c (Proc.devRef .tc main_arg4) := by host_keeps hostOps0_2
    _ = W1 (F := Ideal) m ρ c (Proc.devRef .tc main_arg4) := by host_keeps hostOps0_1
    _ = W0 (F := Ideal) m ρ c (Proc.devRef .tc main_arg4) := by host_keeps hostOps0
    _ = (m ((c : Thread nD τ).loc main_arg4)) := rfl

theorem at13_bf (c : Dev nD) : W13 (F := Ideal) m ρ c (Proc.devRef .tc main_arg6) = (m ((c : Thread nD τ).loc main_arg6)) :=
  calc W13 (F := Ideal) m ρ c (Proc.devRef .tc main_arg6)
    _ = W12 (F := Ideal) m ρ c (Proc.devRef .tc main_arg6) := W13_of_ne m ρ c main_arg6 (by decide)
    _ = W11 (F := Ideal) m ρ c (Proc.devRef .tc main_arg6) := by host_keeps hostOps5
    _ = W10 (F := Ideal) m ρ c (Proc.devRef .tc main_arg6) := W11_of_ne m ρ c main_arg6 (by decide)
    _ = W9 (F := Ideal) m ρ c (Proc.devRef .tc main_arg6) := by host_keeps hostOps4
    _ = W8 (F := Ideal) m ρ c (Proc.devRef .tc main_arg6) := W9_of_ne m ρ c main_arg6 (by decide)
    _ = W7 (F := Ideal) m ρ c (Proc.devRef .tc main_arg6) := W8_of_ne m ρ c main_arg6 (by decide)
    _ = W6 (F := Ideal) m ρ c (Proc.devRef .tc main_arg6) := by host_keeps hostOps2
    _ = W5 (F := Ideal) m ρ c (Proc.devRef .tc main_arg6) := W6_of_ne m ρ c main_arg6 (by decide)
    _ = W4 (F := Ideal) m ρ c (Proc.devRef .tc main_arg6) := by host_keeps hostOps1
    _ = W3 (F := Ideal) m ρ c (Proc.devRef .tc main_arg6) := W4_of_ne m ρ c main_arg6 (by decide)
    _ = W2 (F := Ideal) m ρ c (Proc.devRef .tc main_arg6) := by host_keeps hostOps0_2
    _ = W1 (F := Ideal) m ρ c (Proc.devRef .tc main_arg6) := by host_keeps hostOps0_1
    _ = W0 (F := Ideal) m ρ c (Proc.devRef .tc main_arg6) := by host_keeps hostOps0
    _ = (m ((c : Thread nD τ).loc main_arg6)) := rfl

theorem at14_wf (c : Dev nD) : W14 (F := Ideal) m ρ c (Proc.devRef .tc main_arg5) = (m ((c : Thread nD τ).loc main_arg5)) :=
  calc W14 (F := Ideal) m ρ c (Proc.devRef .tc main_arg5)
    _ = W13 (F := Ideal) m ρ c (Proc.devRef .tc main_arg5) := by host_keeps hostOps6
    _ = W12 (F := Ideal) m ρ c (Proc.devRef .tc main_arg5) := W13_of_ne m ρ c main_arg5 (by decide)
    _ = W11 (F := Ideal) m ρ c (Proc.devRef .tc main_arg5) := by host_keeps hostOps5
    _ = W10 (F := Ideal) m ρ c (Proc.devRef .tc main_arg5) := W11_of_ne m ρ c main_arg5 (by decide)
    _ = W9 (F := Ideal) m ρ c (Proc.devRef .tc main_arg5) := by host_keeps hostOps4
    _ = W8 (F := Ideal) m ρ c (Proc.devRef .tc main_arg5) := W9_of_ne m ρ c main_arg5 (by decide)
    _ = W7 (F := Ideal) m ρ c (Proc.devRef .tc main_arg5) := W8_of_ne m ρ c main_arg5 (by decide)
    _ = W6 (F := Ideal) m ρ c (Proc.devRef .tc main_arg5) := by host_keeps hostOps2
    _ = W5 (F := Ideal) m ρ c (Proc.devRef .tc main_arg5) := W6_of_ne m ρ c main_arg5 (by decide)
    _ = W4 (F := Ideal) m ρ c (Proc.devRef .tc main_arg5) := by host_keeps hostOps1
    _ = W3 (F := Ideal) m ρ c (Proc.devRef .tc main_arg5) := W4_of_ne m ρ c main_arg5 (by decide)
    _ = W2 (F := Ideal) m ρ c (Proc.devRef .tc main_arg5) := by host_keeps hostOps0_2
    _ = W1 (F := Ideal) m ρ c (Proc.devRef .tc main_arg5) := by host_keeps hostOps0_1
    _ = W0 (F := Ideal) m ρ c (Proc.devRef .tc main_arg5) := by host_keeps hostOps0
    _ = (m ((c : Thread nD τ).loc main_arg5)) := rfl

/-! ## The edge lists and the coefficients, carried along -/

theorem at9_src (c : Dev nD) : W9 (F := Ideal) m ρ c (Proc.devRef .tc main_v5) = Layer.srcIdx (F := Ideal) (m ((c : Thread nD τ).loc main_arg7)) :=
  (W9_of_ne m ρ c main_v5 (by decide)).trans (at8_src m ρ c)

theorem at9_coef (c : Dev nD) : W9 (F := Ideal) m ρ c (Proc.devRef .tc main_v29) = Layer.coef (F := Ideal) (m ((c : Thread nD τ).loc main_arg7)) :=
  (W9_of_ne m ρ c main_v29 (by decide)).trans (at8_coef m ρ c)

theorem at11_dst (c : Dev nD) : W11 (F := Ideal) m ρ c (Proc.devRef .tc main_v6) = Layer.dstIdx (F := Ideal) (m ((c : Thread nD τ).loc main_arg7)) :=
  calc W11 (F := Ideal) m ρ c (Proc.devRef .tc main_v6)
    _ = W10 (F := Ideal) m ρ c (Proc.devRef .tc main_v6) := W11_of_ne m ρ c main_v6 (by decide)
    _ = W9 (F := Ideal) m ρ c (Proc.devRef .tc main_v6) := by host_keeps hostOps4
    _ = W8 (F := Ideal) m ρ c (Proc.devRef .tc main_v6) := W9_of_ne m ρ c main_v6 (by decide)
    _ = Layer.dstIdx (F := Ideal) (m ((c : Thread nD τ).loc main_arg7)) := at8_dst m ρ c

/-! ## The second layer, link by link -/

/-- Region 3 leaves h₁ · W2. -/
theorem at9_lin (c : Dev nD) : W9 (F := Ideal) m ρ c (Proc.devRef .tc main_v45) = Layer.project (F := Ideal) (Layer.layer (F := Ideal) (m ((c : Thread nD τ).loc main_arg0)) (m ((c : Thread nD τ).loc main_arg1)) (m ((c : Thread nD τ).loc main_arg2)) (m ((c : Thread nD τ).loc main_arg7))) (m ((c : Thread nD τ).loc main_arg3)) := by
  refine ((W9_arr m ρ c 2).trans (final3 (V8 m ρ) c)).trans ?_
  show Layer.project (F := Ideal) (W8 (F := Ideal) m ρ c (Proc.devRef .tc main_v44)) (W8 (F := Ideal) m ρ c (Proc.devRef .tc main_arg3)) = _
  rw [at8_hidden m ρ c, at8_w2 m ρ c]

/-- The host gathers the rows of h₁ · W2 at the sources. -/
theorem at10_msg (c : Dev nD) : W10 (F := Ideal) m ρ c (Proc.devRef .tc main_v52) = Layer.rowsAt (F := Ideal) (Layer.project (F := Ideal) (Layer.layer (F := Ideal) (m ((c : Thread nD τ).loc main_arg0)) (m ((c : Thread nD τ).loc main_arg1)) (m ((c : Thread nD τ).loc main_arg2)) (m ((c : Thread nD τ).loc main_arg7))) (m ((c : Thread nD τ).loc main_arg3))) (Layer.srcIdx (F := Ideal) (m ((c : Thread nD τ).loc main_arg7))) := by
  have h : W10 (F := Ideal) m ρ c (Proc.devRef .tc main_v52) = Layer.rowsAt (F := Ideal) (W9 (F := Ideal) m ρ c (Proc.devRef .tc main_v45)) (W9 (F := Ideal) m ρ c (Proc.devRef .tc main_v5)) := by
    show StableHlo.after hostOps4 (W9 (F := Ideal) m ρ c) (Proc.devRef .tc main_v52) = _
    after_results
    rfl
  rw [h, at9_lin m ρ c, at9_src m ρ c]

/-- The coefficients as one column. -/
theorem at10_col (c : Dev nD) : W10 (F := Ideal) m ρ c (Proc.devRef .tc main_v53) = Layer.asCol (F := Ideal) (Layer.coef (F := Ideal) (m ((c : Thread nD τ).loc main_arg7))) := by
  have h : W10 (F := Ideal) m ρ c (Proc.devRef .tc main_v53) = shapeCast S1700000x1 (W9 (F := Ideal) m ρ c (Proc.devRef .tc main_v29)) shapeCasts_S1700000_S1700000x1 := by
    show StableHlo.after hostOps4 (W9 (F := Ideal) m ρ c) (Proc.devRef .tc main_v53) = _
    after_results
    rfl
  rw [h, col_eq, at9_coef m ρ c]

/-- Region 4 scales every gathered row by its edge's coefficient. -/
theorem at11_scaled (c : Dev nD) : W11 (F := Ideal) m ρ c (Proc.devRef .tc main_v54) = Layer.scaleRows (F := Ideal) (Layer.rowsAt (F := Ideal) (Layer.project (F := Ideal) (Layer.layer (F := Ideal) (m ((c : Thread nD τ).loc main_arg0)) (m ((c : Thread nD τ).loc main_arg1)) (m ((c : Thread nD τ).loc main_arg2)) (m ((c : Thread nD τ).loc main_arg7))) (m ((c : Thread nD τ).loc main_arg3))) (Layer.srcIdx (F := Ideal) (m ((c : Thread nD τ).loc main_arg7)))) (Layer.asCol (F := Ideal) (Layer.coef (F := Ideal) (m ((c : Thread nD τ).loc main_arg7)))) := by
  refine ((W11_arr m ρ c 2).trans (final4 (V10 m ρ) c)).trans ?_
  show Layer.scaleRows (F := Ideal) (W10 (F := Ideal) m ρ c (Proc.devRef .tc main_v52)) (W10 (F := Ideal) m ρ c (Proc.devRef .tc main_v53)) = _
  rw [at10_msg m ρ c, at10_col m ρ c]

/-- The host sums the scaled rows into the targets. -/
theorem at12_sum (c : Dev nD) : W12 (F := Ideal) m ρ c (Proc.devRef .tc main_v57) = Layer.sumInto (F := Ideal) (Layer.dstIdx (F := Ideal) (m ((c : Thread nD τ).loc main_arg7))) (Layer.scaleRows (F := Ideal) (Layer.rowsAt (F := Ideal) (Layer.project (F := Ideal) (Layer.layer (F := Ideal) (m ((c : Thread nD τ).loc main_arg0)) (m ((c : Thread nD τ).loc main_arg1)) (m ((c : Thread nD τ).loc main_arg2)) (m ((c : Thread nD τ).loc main_arg7))) (m ((c : Thread nD τ).loc main_arg3))) (Layer.srcIdx (F := Ideal) (m ((c : Thread nD τ).loc main_arg7)))) (Layer.asCol (F := Ideal) (Layer.coef (F := Ideal) (m ((c : Thread nD τ).loc main_arg7))))) := by
  have h : W12 (F := Ideal) m ρ c (Proc.devRef .tc main_v57) = Layer.sumInto (F := Ideal) (W11 (F := Ideal) m ρ c (Proc.devRef .tc main_v6)) (W11 (F := Ideal) m ρ c (Proc.devRef .tc main_v54)) := by
    show StableHlo.after hostOps5 (W11 (F := Ideal) m ρ c) (Proc.devRef .tc main_v57) = _
    after_results
    rfl
  rw [h, at11_dst m ρ c, at11_scaled m ρ c]

/-- The second bias as one row. -/
theorem at12_row (c : Dev nD) : W12 (F := Ideal) m ρ c (Proc.devRef .tc main_v58) = Layer.asRow128 (F := Ideal) (m ((c : Thread nD τ).loc main_arg4)) := by
  have h : W12 (F := Ideal) m ρ c (Proc.devRef .tc main_v58) = shapeCast S1x128 (W11 (F := Ideal) m ρ c (Proc.devRef .tc main_arg4)) shapeCasts_S128_S1x128 := by
    show StableHlo.after hostOps5 (W11 (F := Ideal) m ρ c) (Proc.devRef .tc main_v58) = _
    after_results
    rfl
  rw [h, row128_eq, at11_b2 m ρ c]

/-- One layer is its five links in a row. -/
theorem layer_links (h : (⟨S100000x128, .f32⟩ : BufTy).Contents (Elt Ideal)) (w : (⟨S128x128, .f32⟩ : BufTy).Contents (Elt Ideal)) (b : (⟨S128, .f32⟩ : BufTy).Contents (Elt Ideal)) (e : (⟨S2x1600000, .i32⟩ : BufTy).Contents (Elt Ideal)) :
    Layer.layer (F := Ideal) h w b e = Layer.biasRelu (F := Ideal) (Layer.sumInto (F := Ideal) (Layer.dstIdx (F := Ideal) e) (Layer.scaleRows (F := Ideal) (Layer.rowsAt (F := Ideal) (Layer.project (F := Ideal) h w) (Layer.srcIdx (F := Ideal) e)) (Layer.asCol (F := Ideal) (Layer.coef (F := Ideal) e)))) (Layer.asRow128 (F := Ideal) b) := rfl

/-- Region 5 adds the bias and takes the positive part: the second layer. -/
theorem at13_hidden (c : Dev nD) : W13 (F := Ideal) m ρ c (Proc.devRef .tc main_v59) = Layer.layer (F := Ideal) (Layer.layer (F := Ideal) (m ((c : Thread nD τ).loc main_arg0)) (m ((c : Thread nD τ).loc main_arg1)) (m ((c : Thread nD τ).loc main_arg2)) (m ((c : Thread nD τ).loc main_arg7))) (m ((c : Thread nD τ).loc main_arg3)) (m ((c : Thread nD τ).loc main_arg4)) (m ((c : Thread nD τ).loc main_arg7)) := by
  refine ((W13_arr m ρ c 2).trans (final5 (V12 m ρ) c)).trans ?_
  show Layer.biasRelu (F := Ideal) (W12 (F := Ideal) m ρ c (Proc.devRef .tc main_v57)) (W12 (F := Ideal) m ρ c (Proc.devRef .tc main_v58)) = _
  rw [at12_sum m ρ c, at12_row m ρ c]
  exact (layer_links _ _ _ _).symm

/-! ## The read-out -/

theorem at14_hidden (c : Dev nD) : W14 (F := Ideal) m ρ c (Proc.devRef .tc main_v59) = Layer.layer (F := Ideal) (Layer.layer (F := Ideal) (m ((c : Thread nD τ).loc main_arg0)) (m ((c : Thread nD τ).loc main_arg1)) (m ((c : Thread nD τ).loc main_arg2)) (m ((c : Thread nD τ).loc main_arg7))) (m ((c : Thread nD τ).loc main_arg3)) (m ((c : Thread nD τ).loc main_arg4)) (m ((c : Thread nD τ).loc main_arg7)) :=
  calc W14 (F := Ideal) m ρ c (Proc.devRef .tc main_v59)
    _ = W13 (F := Ideal) m ρ c (Proc.devRef .tc main_v59) := by host_keeps hostOps6
    _ = Layer.layer (F := Ideal) (Layer.layer (F := Ideal) (m ((c : Thread nD τ).loc main_arg0)) (m ((c : Thread nD τ).loc main_arg1)) (m ((c : Thread nD τ).loc main_arg2)) (m ((c : Thread nD τ).loc main_arg7))) (m ((c : Thread nD τ).loc main_arg3)) (m ((c : Thread nD τ).loc main_arg4)) (m ((c : Thread nD τ).loc main_arg7)) := at13_hidden m ρ c

/-- The last bias as one row. -/
theorem at14_row (c : Dev nD) : W14 (F := Ideal) m ρ c (Proc.devRef .tc main_v60) = Layer.asRow64 (F := Ideal) (m ((c : Thread nD τ).loc main_arg6)) := by
  have h : W14 (F := Ideal) m ρ c (Proc.devRef .tc main_v60) = shapeCast S1x64 (W13 (F := Ideal) m ρ c (Proc.devRef .tc main_arg6)) shapeCasts_S64_S1x64 := by
    show StableHlo.after hostOps6 (W13 (F := Ideal) m ρ c) (Proc.devRef .tc main_v60) = _
    after_results
    rfl
  rw [h, row64_eq, at13_bf m ρ c]

/-- Region 6 leaves h₂ · Wf + bf: the network's output. -/
theorem out_value (c : Dev nD) : W15 (F := Ideal) m ρ c (Proc.devRef .tc main_v61) = Cert.ReferenceIdeal.Layer.output (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine ((W15_arr m ρ c 3).trans (final6 (V14 m ρ) c)).trans ?_
  show Layer.projectOut (F := Ideal) (W14 (F := Ideal) m ρ c (Proc.devRef .tc main_v59)) (W14 (F := Ideal) m ρ c (Proc.devRef .tc main_arg5)) (W14 (F := Ideal) m ρ c (Proc.devRef .tc main_v60)) = _
  rw [at14_hidden m ρ c, at14_wf m ρ c, at14_row m ρ c]
  rfl

end Cert.KernelIdeal.Gen

end
-- ==== Proof.RefStages.lean ====
/-
  The reference's result, read one operation at a time, is the network of Proof/LayerOps.lean: each of its stages is
  the next link applied to the stages before it, and the second layer's edge lists and coefficients, which the
  reference computes a second time, are the first layer's.
-/
import proofs.«171188_j60378650247170_1_alg».proof.Proof.RefRead
import proofs.«171188_j60378650247170_1_alg».proof.Proof.LayerOps

noncomputable section

namespace Cert.ReferenceIdeal.Layer

open Cert.ReferenceIdeal Cert.ReferenceIdeal.Gen Idealize.ShloMosaic Idealize.ShloMosaic.TcCoe Idealize.SL.Sem Idealize.ShloMosaic.StableHlo

variable {F : FTy → Type} [FloatOps F]

/-- The second layer's list of sources is the first layer's: the same slice of the edge table, the same self-loops. -/
theorem src_again (x7 : (⟨S2x1600000, .i32⟩ : BufTy).Contents (Elt F)) : ReadP.val_main_v50 (F := F) x7 = srcIdx (F := F) x7 := rfl

/-- The second layer's list of targets is the first layer's. -/
theorem dst_again (x7 : (⟨S2x1600000, .i32⟩ : BufTy).Contents (Elt F)) : ReadP.val_main_v51 (F := F) x7 = dstIdx (F := F) x7 := rfl

/-- The second layer's coefficients are the first layer's: the same degrees, the same two gathers. -/
theorem coef_again (x7 : (⟨S2x1600000, .i32⟩ : BufTy).Contents (Elt F)) : ReadP.val_main_v74 (F := F) x7 = coef (F := F) x7 := rfl

/-- The reference's first hidden state is one layer of the input. -/
theorem hidden1 (x0 : (⟨S100000x128, .f32⟩ : BufTy).Contents (Elt F)) (x1 : (⟨S128x128, .f32⟩ : BufTy).Contents (Elt F)) (x2 : (⟨S128, .f32⟩ : BufTy).Contents (Elt F)) (x7 : (⟨S2x1600000, .i32⟩ : BufTy).Contents (Elt F)) :
    ReadP.val_main_v47 (F := F) x0 x1 x2 x7 = layer (F := F) x0 x1 x2 x7 := rfl

/-- The reference's second hidden state is one layer of the first: its stages are the same links, over the second
    copy of the edge lists and coefficients. -/
theorem hidden2 (x0 : (⟨S100000x128, .f32⟩ : BufTy).Contents (Elt F)) (x1 : (⟨S128x128, .f32⟩ : BufTy).Contents (Elt F)) (x2 : (⟨S128, .f32⟩ : BufTy).Contents (Elt F)) (x3 : (⟨S128x128, .f32⟩ : BufTy).Contents (Elt F)) (x4 : (⟨S128, .f32⟩ : BufTy).Contents (Elt F)) (x7 : (⟨S2x1600000, .i32⟩ : BufTy).Contents (Elt F)) :
    ReadP.val_main_v91 (F := F) x0 x1 x2 x3 x4 x7 = layer (F := F) (layer (F := F) x0 x1 x2 x7) x3 x4 x7 := by
  rw [← hidden1]
  rfl

/-- The reference's result is the read-out of the second hidden state. -/
theorem result_stage (x0 : (⟨S100000x128, .f32⟩ : BufTy).Contents (Elt F)) (x1 : (⟨S128x128, .f32⟩ : BufTy).Contents (Elt F)) (x2 : (⟨S128, .f32⟩ : BufTy).Contents (Elt F)) (x3 : (⟨S128x128, .f32⟩ : BufTy).Contents (Elt F)) (x4 : (⟨S128, .f32⟩ : BufTy).Contents (Elt F)) (x5 : (⟨S128x64, .f32⟩ : BufTy).Contents (Elt F)) (x6 : (⟨S64, .f32⟩ : BufTy).Contents (Elt F)) (x7 : (⟨S2x1600000, .i32⟩ : BufTy).Contents (Elt F)) :
    ReadP.val_main_v95 (F := F) x0 x1 x2 x3 x4 x5 x6 x7 = output (F := F) x0 x1 x2 x3 x4 x5 x6 x7 := by
  unfold output
  rw [← hidden2]
  rfl

/-- What the reference's run leaves in its result buffer is the network's output of the arguments. -/
theorem ref_value (m : (ℓ : Loc nD τ sig) → Buf (Elt F) ℓ) (c : Dev nD) :
    RunP.res_main_v95 (F := F) m c = output (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (ReadP.val_main_v95_eq m c).trans (result_stage _ _ _ _ _ _ _ _)

end Cert.ReferenceIdeal.Layer

end
-- ==== Proof.lean ====
/-
  Two graph-convolution layers and a linear read-out over 100000 nodes and 1700000 edges (the given ones and a
  self-loop per node):  h ↦ relu (Σ_{e : dst e = v} coef e · (h · W)(src e) + b), twice, then h · Wf + bf.
  The reference runs every step on the host. The kernel's program runs the same steps, in the same order, and hands
  four kinds of them to seven Pallas regions: the three matrix products (row blocks of 5000 nodes, the operands
  rounded to bf16 first, which over the extended reals changes nothing), the scaling of the gathered rows by the
  edge coefficients (blocks of 10000 edges), and bias plus relu (blocks of 5000 nodes). The gathers and the
  scatter-adds stay host operations in both programs, so no law of the extended reals is needed beyond reading a
  matrix product as the sum over its contracted axis: each region's array after its run IS the reference's stage of
  the region's operands (Proof/Region0..6), the contents are followed from segment to segment of @main
  (Proof/Walk1, Proof/Walk2), and the reference's result is the same network (Proof/RefStages).
  The kernel's idealization rewrote nothing, so `preserves` is `True`.
-/
import proofs.«171188_j60378650247170_1_alg».proof.Defs
import proofs.«171188_j60378650247170_1_alg».proof.Proof.Gen.Kernel.Frame
import proofs.«171188_j60378650247170_1_alg».proof.Proof.Gen.KernelIdeal.Frame
import proofs.«171188_j60378650247170_1_alg».proof.Proof.Gen.Pre_finite_inputs
import proofs.«171188_j60378650247170_1_alg».proof.Proof.KernelRun
import proofs.«171188_j60378650247170_1_alg».proof.Proof.Walk2
import proofs.«171188_j60378650247170_1_alg».proof.Proof.RefStages

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- Both programs end with the network's output of their (agreeing) arguments. -/
theorem algebraic : Cert.algebraic_KernelIdeal_ReferenceIdeal := by
  intro m ρ m' ρ' _ hagree
  refine ⟨fun c => Cert.ReferenceIdeal.Layer.output (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Gen.out_value m ρ c), (h c).2⟩)
      (Cert.KernelIdeal.Gen.run_result (F := Ideal) m ρ)
  · refine (θ_run Cert.ReferenceIdeal.defs _ _).mono (fun _ h c => ⟨(h c).1.trans ?_, (h c).2⟩)
      (Cert.ReferenceIdeal.RunP.run (F := Ideal) m' ρ')
    rw [Cert.ReferenceIdeal.Layer.ref_value, (hagree c).1, (hagree c).2.1, (hagree c).2.2.1, (hagree c).2.2.2.1,
      (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
